-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x512 : Shape := ⟨4, ![8, 16, 512, 512]⟩
abbrev S8x512x512x2 : Shape := ⟨4, ![8, 512, 512, 2]⟩
abbrev S_ : Shape := ⟨0, ![]⟩

class Facts : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel
  bcast_S_S8x512x512x2 : S_.BroadcastsInDim S8x512x512x2 (![] : Fin 0 → Fin S8x512x512x2.rank)
  reducesTo_S8x512x512x2_S_d0_1_2_3 : S8x512x512x2.ReducesTo [0, 1, 2, 3] S_

variable [Facts]

def fn {F : FTy → Type} [FloatOps F] (main_arg0 : FVec F S8x16x512x512 .f32) (main_arg1 : FVec F S8x512x512x2 .f32) : IVec S_ 1 :=
  let main_v0 : FVec F S8x16x512x512 .f32 := Host.absf main_arg0
  let main_cst : FVec F S_ .f32 := constant S_ .f32 0x7F800000#32
  let main_v1 : FVec F S8x16x512x512 .f32 := broadcastInDim S8x16x512x512 ![] bcast_S_S8x16x512x512 main_cst
  let main_v2 : IVec S8x16x512x512 1 := cmpf .olt main_v0 main_v1
  let main_c : IVec S_ 1 := constantI S_ 1 1#1
  let main_v3 : IVec S_ 1 := (fun x v => Host.reduce IntOp.andi x v reducesTo_S8x16x512x512_S_d0_1_2_3 h_S_) main_v2 main_c
  let main_v4 : FVec F S8x512x512x2 .f32 := Host.absf main_arg1
  let main_cst_0 : FVec F S_ .f32 := constant S_ .f32 0x7F800000#32
  let main_v5 : FVec F S8x512x512x2 .f32 := broadcastInDim S8x512x512x2 ![] bcast_S_S8x512x512x2 main_cst_0
  let main_v6 : IVec S8x512x512x2 1 := cmpf .olt main_v4 main_v5
  let main_c_1 : IVec S_ 1 := constantI S_ 1 1#1
  let main_v7 : IVec S_ 1 := (fun x v => Host.reduce IntOp.andi x v reducesTo_S8x512x512x2_S_d0_1_2_3 h_S_) main_v6 main_c_1
  let main_v8 : IVec S_ 1 := andi main_v3 main_v7
  main_v8
-- ==== Kernel.lean ====
abbrev S8x16x512x512 : Shape := ⟨4, ![8, 16, 512, 512]⟩
abbrev S8x512x512x2 : Shape := ⟨4, ![8, 512, 512, 2]⟩
abbrev S8x512x512x1 : Shape := ⟨4, ![8, 512, 512, 1]⟩
abbrev S8x512x512 : Shape := ⟨3, ![8, 512, 512]⟩
abbrev S_ : Shape := ⟨0, ![]⟩
abbrev S1x16x64x512 : Shape := ⟨4, ![1, 16, 64, 512]⟩
abbrev S1x64x512 : Shape := ⟨3, ![1, 64, 512]⟩
abbrev S16x64x512 : Shape := ⟨3, ![16, 64, 512]⟩
abbrev S64x512 : Shape := ⟨2, ![64, 512]⟩

abbrev nBuf : Space → Nat
  | .hbm => 207
  | .vmem => 18
  | .smem => 0
  | _ => 0

abbrev hbmTy0_0 (i : Nat) : BufTy := match i % 128 with
  | 0 => ⟨S8x16x512x512, .f32⟩
  | 1 => ⟨S8x512x512x2, .f32⟩
  | 2 => ⟨S8x512x512x1, .f32⟩
  | 3 => ⟨S8x512x512, .f32⟩
  | 4 => ⟨S8x512x512x1, .f32⟩
  | 5 => ⟨S8x512x512, .f32⟩
  | 6 => ⟨S_, .f32⟩
  | 7 => ⟨S8x512x512, .f32⟩
  | 8 => ⟨S8x512x512, .f32⟩
  | 9 => ⟨S_, .f32⟩
  | 10 => ⟨S8x512x512, .f32⟩
  | 11 => ⟨S8x512x512, .f32⟩
  | 12 => ⟨S_, .f32⟩
  | 13 => ⟨S8x512x512, .f32⟩
  | 14 => ⟨S8x512x512, .f32⟩
  | 15 => ⟨S_, .f32⟩
  | 16 => ⟨S8x512x512, .f32⟩
  | 17 => ⟨S8x512x512, .f32⟩
  | 18 => ⟨S_, .f32⟩
  | 19 => ⟨S8x512x512, .f32⟩
  | 20 => ⟨S8x512x512, .f32⟩
  | 21 => ⟨S_, .f32⟩
  | 22 => ⟨S8x512x512, .f32⟩
  | 23 => ⟨S8x512x512, .f32⟩
  | 24 => ⟨S_, .f32⟩
  | 25 => ⟨S8x512x512, .f32⟩
  | 26 => ⟨S8x512x512, .f32⟩
  | 27 => ⟨S_, .f32⟩
  | 28 => ⟨S8x512x512, .f32⟩
  | 29 => ⟨S8x512x512, .f32⟩
  | 30 => ⟨S8x512x512, .f32⟩
  | 31 => ⟨S8x512x512, .f32⟩
  | 32 => ⟨S8x512x512, .f32⟩
  | 33 => ⟨S8x512x512, .f32⟩
  | 34 => ⟨S_, .f32⟩
  | 35 => ⟨S8x512x512, .f32⟩
  | 36 => ⟨S8x512x512, .f32⟩
  | 37 => ⟨S_, .f32⟩
  | 38 => ⟨S8x512x512, .f32⟩
  | 39 => ⟨S8x512x512, .f32⟩
  | 40 => ⟨S_, .f32⟩
  | 41 => ⟨S8x512x512, .f32⟩
  | 42 => ⟨S8x512x512, .f32⟩
  | 43 => ⟨S_, .f32⟩
  | 44 => ⟨S8x512x512, .f32⟩
  | 45 => ⟨S8x512x512, .f32⟩
  | 46 => ⟨S_, .f32⟩
  | 47 => ⟨S8x512x512, .f32⟩
  | 48 => ⟨S8x512x512, .i1⟩
  | 49 => ⟨S_, .f32⟩
  | 50 => ⟨S8x512x512, .f32⟩
  | 51 => ⟨S8x512x512, .i1⟩
  | 52 => ⟨S8x512x512, .i1⟩
  | 53 => ⟨S_, .f32⟩
  | 54 => ⟨S8x512x512, .f32⟩
  | 55 => ⟨S8x512x512, .i1⟩
  | 56 => ⟨S_, .f32⟩
  | 57 => ⟨S8x512x512, .f32⟩
  | 58 => ⟨S8x512x512, .i1⟩
  | 59 => ⟨S8x512x512, .i1⟩
  | 60 => ⟨S_, .f32⟩
  | 61 => ⟨S8x512x512, .f32⟩
  | 62 => ⟨S8x512x512, .i1⟩
  | 63 => ⟨S_, .f32⟩
  | 64 => ⟨S8x512x512, .f32⟩
  | 65 => ⟨S8x512x512, .i1⟩
  | 66 => ⟨S8x512x512, .i1⟩
  | 67 => ⟨S_, .f32⟩
  | 68 => ⟨S8x512x512, .f32⟩
  | 69 => ⟨S8x512x512, .i1⟩
  | 70 => ⟨S_, .f32⟩
  | 71 => ⟨S8x512x512, .f32⟩
  | 72 => ⟨S8x512x512, .i1⟩
  | 73 => ⟨S8x512x512, .i1⟩
  | 74 => ⟨S_, .i32⟩
  | 75 => ⟨S_, .i32⟩
  | 76 => ⟨S_, .f32⟩
  | 77 => ⟨S8x512x512, .f32⟩
  | 78 => ⟨S8x512x512, .f32⟩
  | 79 => ⟨S_, .f32⟩
  | 80 => ⟨S8x512x512, .f32⟩
  | 81 => ⟨S8x512x512, .f32⟩
  | 82 => ⟨S8x512x512, .i32⟩
  | 83 => ⟨S_, .i32⟩
  | 84 => ⟨S_, .i32⟩
  | 85 => ⟨S_, .f32⟩
  | 86 => ⟨S8x512x512, .f32⟩
  | 87 => ⟨S8x512x512, .f32⟩
  | 88 => ⟨S_, .f32⟩
  | 89 => ⟨S8x512x512, .f32⟩
  | 90 => ⟨S8x512x512, .f32⟩
  | 91 => ⟨S8x512x512, .i32⟩
  | 92 => ⟨S_, .i32⟩
  | 93 => ⟨S_, .i32⟩
  | 94 => ⟨S_, .f32⟩
  | 95 => ⟨S8x512x512, .f32⟩
  | 96 => ⟨S8x512x512, .f32⟩
  | 97 => ⟨S_, .f32⟩
  | 98 => ⟨S8x512x512, .f32⟩
  | 99 => ⟨S8x512x512, .f32⟩
  | 100 => ⟨S8x512x512, .i32⟩
  | 101 => ⟨S_, .i32⟩
  | 102 => ⟨S_, .i32⟩
  | 103 => ⟨S_, .f32⟩
  | 104 => ⟨S8x512x512, .f32⟩
  | 105 => ⟨S8x512x512, .f32⟩
  | 106 => ⟨S_, .f32⟩
  | 107 => ⟨S8x512x512, .f32⟩
  | 108 => ⟨S8x512x512, .f32⟩
  | 109 => ⟨S8x512x512, .i32⟩
  | 110 => ⟨S8x512x512, .i1⟩
  | 111 => ⟨S8x512x512, .i1⟩
  | 112 => ⟨S8x512x512, .i1⟩
  | 113 => ⟨S8x512x512, .i1⟩
  | 114 => ⟨S8x512x512, .f32⟩
  | 115 => ⟨S_, .f32⟩
  | 116 => ⟨S_, .f32⟩
  | 117 => ⟨S8x512x512, .f32⟩
  | 118 => ⟨S8x512x512, .f32⟩
  | 119 => ⟨S8x512x512, .f32⟩
  | 120 => ⟨S_, .f32⟩
  | 121 => ⟨S_, .f32⟩
  | 122 => ⟨S8x512x512, .f32⟩
  | 123 => ⟨S8x512x512, .f32⟩
  | 124 => ⟨S8x512x512, .f32⟩
  | 125 => ⟨S_, .f32⟩
  | 126 => ⟨S_, .f32⟩
  | 127 => ⟨S8x512x512, .f32⟩
  | _ => ⟨S8x16x512x512, .f32⟩

abbrev hbmTy0_1 (i : Nat) : BufTy := match i % 128 with
  | 0 => ⟨S8x512x512, .f32⟩
  | 1 => ⟨S8x512x512, .f32⟩
  | 2 => ⟨S_, .f32⟩
  | 3 => ⟨S_, .f32⟩
  | 4 => ⟨S8x512x512, .f32⟩
  | 5 => ⟨S8x512x512, .f32⟩
  | 6 => ⟨S_, .i32⟩
  | 7 => ⟨S8x512x512, .i32⟩
  | 8 => ⟨S8x512x512, .i1⟩
  | 9 => ⟨S_, .i32⟩
  | 10 => ⟨S8x512x512, .i32⟩
  | 11 => ⟨S8x512x512, .i32⟩
  | 12 => ⟨S8x512x512, .i32⟩
  | 13 => ⟨S_, .i32⟩
  | 14 => ⟨S8x512x512, .i32⟩
  | 15 => ⟨S8x512x512, .i1⟩
  | 16 => ⟨S_, .i32⟩
  | 17 => ⟨S8x512x512, .i32⟩
  | 18 => ⟨S8x512x512, .i32⟩
  | 19 => ⟨S8x512x512, .i32⟩
  | 20 => ⟨S8x512x512x1, .i32⟩
  | 21 => ⟨S8x512x512x1, .i32⟩
  | 22 => ⟨S8x512x512x2, .i32⟩
  | 23 => ⟨S8x16x512x512, .f32⟩
  | 24 => ⟨S_, .i32⟩
  | 25 => ⟨S8x512x512, .i32⟩
  | 26 => ⟨S8x512x512, .i1⟩
  | 27 => ⟨S_, .i32⟩
  | 28 => ⟨S8x512x512, .i32⟩
  | 29 => ⟨S8x512x512, .i32⟩
  | 30 => ⟨S8x512x512, .i32⟩
  | 31 => ⟨S_, .i32⟩
  | 32 => ⟨S8x512x512, .i32⟩
  | 33 => ⟨S8x512x512, .i1⟩
  | 34 => ⟨S_, .i32⟩
  | 35 => ⟨S8x512x512, .i32⟩
  | 36 => ⟨S8x512x512, .i32⟩
  | 37 => ⟨S8x512x512, .i32⟩
  | 38 => ⟨S8x512x512x1, .i32⟩
  | 39 => ⟨S8x512x512x1, .i32⟩
  | 40 => ⟨S8x512x512x2, .i32⟩
  | 41 => ⟨S8x16x512x512, .f32⟩
  | 42 => ⟨S_, .i32⟩
  | 43 => ⟨S8x512x512, .i32⟩
  | 44 => ⟨S8x512x512, .i1⟩
  | 45 => ⟨S_, .i32⟩
  | 46 => ⟨S8x512x512, .i32⟩
  | 47 => ⟨S8x512x512, .i32⟩
  | 48 => ⟨S8x512x512, .i32⟩
  | 49 => ⟨S_, .i32⟩
  | 50 => ⟨S8x512x512, .i32⟩
  | 51 => ⟨S8x512x512, .i1⟩
  | 52 => ⟨S_, .i32⟩
  | 53 => ⟨S8x512x512, .i32⟩
  | 54 => ⟨S8x512x512, .i32⟩
  | 55 => ⟨S8x512x512, .i32⟩
  | 56 => ⟨S8x512x512x1, .i32⟩
  | 57 => ⟨S8x512x512x1, .i32⟩
  | 58 => ⟨S8x512x512x2, .i32⟩
  | 59 => ⟨S8x16x512x512, .f32⟩
  | 60 => ⟨S_, .i32⟩
  | 61 => ⟨S8x512x512, .i32⟩
  | 62 => ⟨S8x512x512, .i1⟩
  | 63 => ⟨S_, .i32⟩
  | 64 => ⟨S8x512x512, .i32⟩
  | 65 => ⟨S8x512x512, .i32⟩
  | 66 => ⟨S8x512x512, .i32⟩
  | 67 => ⟨S_, .i32⟩
  | 68 => ⟨S8x512x512, .i32⟩
  | 69 => ⟨S8x512x512, .i1⟩
  | 70 => ⟨S_, .i32⟩
  | 71 => ⟨S8x512x512, .i32⟩
  | 72 => ⟨S8x512x512, .i32⟩
  | 73 => ⟨S8x512x512, .i32⟩
  | 74 => ⟨S8x512x512x1, .i32⟩
  | 75 => ⟨S8x512x512x1, .i32⟩
  | 76 => ⟨S8x512x512x2, .i32⟩
  | 77 => ⟨S8x16x512x512, .f32⟩
  | 78 => ⟨S8x16x512x512, .f32⟩
  | _ => ⟨S8x16x512x512, .f32⟩

abbrev hbmTy (i : Nat) : BufTy := match i / 128 with
  | 0 => hbmTy0_0 i
  | 1 => hbmTy0_1 i
  | _ => ⟨S8x16x512x512, .f32⟩

abbrev bufTy : (tb : Table) → Fin (tcTables nBuf tb) → BufTy
  | .hbm, ⟨i, _⟩ => hbmTy i
  | .local _ .vmem, ⟨0, _⟩ => ⟨S1x16x64x512, .f32⟩
  | .local _ .vmem, ⟨1, _⟩ => ⟨S1x16x64x512, .f32⟩
  | .local _ .vmem, ⟨2, _⟩ => ⟨S1x16x64x512, .f32⟩
  | .local _ .vmem, ⟨3, _⟩ => ⟨S1x16x64x512, .f32⟩
  | .local _ .vmem, ⟨4, _⟩ => ⟨S1x16x64x512, .f32⟩
  | .local _ .vmem, ⟨5, _⟩ => ⟨S1x16x64x512, .f32⟩
  | .local _ .vmem, ⟨6, _⟩ => ⟨S1x16x64x512, .f32⟩
  | .local _ .vmem, ⟨7, _⟩ => ⟨S1x16x64x512, .f32⟩
  | .local _ .vmem, ⟨8, _⟩ => ⟨S1x64x512, .f32⟩
  | .local _ .vmem, ⟨9, _⟩ => ⟨S1x64x512, .f32⟩
  | .local _ .vmem, ⟨10, _⟩ => ⟨S1x64x512, .f32⟩
  | .local _ .vmem, ⟨11, _⟩ => ⟨S1x64x512, .f32⟩
  | .local _ .vmem, ⟨12, _⟩ => ⟨S1x64x512, .f32⟩
  | .local _ .vmem, ⟨13, _⟩ => ⟨S1x64x512, .f32⟩
  | .local _ .vmem, ⟨14, _⟩ => ⟨S1x64x512, .f32⟩
  | .local _ .vmem, ⟨15, _⟩ => ⟨S1x64x512, .f32⟩
  | .local _ .vmem, ⟨16, _⟩ => ⟨S1x16x64x512, .f32⟩
  | .local _ .vmem, ⟨17, _⟩ => ⟨S1x16x64x512, .f32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_cst_9 : Ref sig .tc := ⟨.hbm, 40, rfl⟩
abbrev main_v28 : Ref sig .tc := ⟨.hbm, 41, rfl⟩
abbrev main_v29 : Ref sig .tc := ⟨.hbm, 42, rfl⟩
abbrev main_cst_10 : Ref sig .tc := ⟨.hbm, 43, rfl⟩
abbrev main_v30 : Ref sig .tc := ⟨.hbm, 44, rfl⟩
abbrev main_v31 : Ref sig .tc := ⟨.hbm, 45, rfl⟩
abbrev main_cst_11 : Ref sig .tc := ⟨.hbm, 46, rfl⟩
abbrev main_v32 : Ref sig .tc := ⟨.hbm, 47, rfl⟩
abbrev main_v33 : Ref sig .tc := ⟨.hbm, 48, rfl⟩
abbrev main_cst_12 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_13 : Ref sig .tc := ⟨.hbm, 53, rfl⟩
abbrev main_v37 : Ref sig .tc := ⟨.hbm, 54, rfl⟩
abbrev main_v38 : Ref sig .tc := ⟨.hbm, 55, rfl⟩
abbrev main_cst_14 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_15 : Ref sig .tc := ⟨.hbm, 60, rfl⟩
abbrev main_v42 : Ref sig .tc := ⟨.hbm, 61, rfl⟩
abbrev main_v43 : Ref sig .tc := ⟨.hbm, 62, rfl⟩
abbrev main_cst_16 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_17 : Ref sig .tc := ⟨.hbm, 67, rfl⟩
abbrev main_v47 : Ref sig .tc := ⟨.hbm, 68, rfl⟩
abbrev main_v48 : Ref sig .tc := ⟨.hbm, 69, rfl⟩
abbrev main_cst_18 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c : Ref sig .tc := ⟨.hbm, 74, rfl⟩
abbrev main_c_19 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_v52 : Ref sig .tc := ⟨.hbm, 81, rfl⟩
abbrev main_v53 : Ref sig .tc := ⟨.hbm, 82, rfl⟩
abbrev main_c_20 : Ref sig .tc := ⟨.hbm, 83, rfl⟩
abbrev main_c_21 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_v54 : Ref sig .tc := ⟨.hbm, 90, rfl⟩
abbrev main_v55 : Ref sig .tc := ⟨.hbm, 91, rfl⟩
abbrev main_c_22 : Ref sig .tc := ⟨.hbm, 92, rfl⟩
abbrev main_c_23 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_v56 : Ref sig .tc := ⟨.hbm, 99, rfl⟩
abbrev main_v57 : Ref sig .tc := ⟨.hbm, 100, rfl⟩
abbrev main_c_24 : Ref sig .tc := ⟨.hbm, 101, rfl⟩
abbrev main_c_25 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_cst_26 : Ref sig .tc := ⟨.hbm, 115, rfl⟩
abbrev main_call4_v0 : Ref sig .tc := ⟨.hbm, 116, rfl⟩
abbrev main_call4_v1 : Ref sig .tc := ⟨.hbm, 117, rfl⟩
abbrev main_v65 : Ref sig .tc := ⟨.hbm, 118, rfl⟩
abbrev main_v66 : Ref sig .tc := ⟨.hbm, 119, rfl⟩
abbrev main_cst_27 : Ref sig .tc := ⟨.hbm, 120, rfl⟩
abbrev main_call5_v0 : Ref sig .tc := ⟨.hbm, 121, rfl⟩
abbrev main_call5_v1 : Ref sig .tc := ⟨.hbm, 122, rfl⟩
abbrev main_v67 : Ref sig .tc := ⟨.hbm, 123, rfl⟩
abbrev main_v68 : Ref sig .tc := ⟨.hbm, 124, rfl⟩
abbrev main_cst_28 : Ref sig .tc := ⟨.hbm, 125, rfl⟩
abbrev main_call6_v0 : Ref sig .tc := ⟨.hbm, 126, rfl⟩
abbrev main_call6_v1 : Ref sig .tc := ⟨.hbm, 127, rfl⟩
abbrev main_v69 : Ref sig .tc := ⟨.hbm, 128, rfl⟩
abbrev main_v70 : Ref sig .tc := ⟨.hbm, 129, rfl⟩
abbrev main_cst_29 : Ref sig .tc := ⟨.hbm, 130, rfl⟩
abbrev main_call7_v0 : Ref sig .tc := ⟨.hbm, 131, rfl⟩
abbrev main_call7_v1 : Ref sig .tc := ⟨.hbm, 132, rfl⟩
abbrev main_v71 : Ref sig .tc := ⟨.hbm, 133, rfl⟩
abbrev main_c_30 : Ref sig .tc := ⟨.hbm, 134, rfl⟩
abbrev main_v72 : Ref sig .tc := ⟨.hbm, 135, rfl⟩
abbrev main_v73 : Ref sig .tc := ⟨.hbm, 136, rfl⟩
abbrev main_c_31 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_c_32 : Ref sig .tc := ⟨.hbm, 141, rfl⟩
abbrev main_v77 : Ref sig .tc := ⟨.hbm, 142, rfl⟩
abbrev main_v78 : Ref sig .tc := ⟨.hbm, 143, rfl⟩
abbrev main_c_33 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_c_34 : Ref sig .tc := ⟨.hbm, 152, rfl⟩
abbrev main_v86 : Ref sig .tc := ⟨.hbm, 153, rfl⟩
abbrev main_v87 : Ref sig .tc := ⟨.hbm, 154, rfl⟩
abbrev main_c_35 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_c_36 : Ref sig .tc := ⟨.hbm, 159, rfl⟩
abbrev main_v91 : Ref sig .tc := ⟨.hbm, 160, rfl⟩
abbrev main_v92 : Ref sig .tc := ⟨.hbm, 161, rfl⟩
abbrev main_c_37 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_c_38 : Ref sig .tc := ⟨.hbm, 170, rfl⟩
abbrev main_v100 : Ref sig .tc := ⟨.hbm, 171, rfl⟩
abbrev main_v101 : Ref sig .tc := ⟨.hbm, 172, rfl⟩
abbrev main_c_39 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_c_40 : Ref sig .tc := ⟨.hbm, 177, rfl⟩
abbrev main_v105 : Ref sig .tc := ⟨.hbm, 178, rfl⟩
abbrev main_v106 : Ref sig .tc := ⟨.hbm, 179, rfl⟩
abbrev main_c_41 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_c_42 : Ref sig .tc := ⟨.hbm, 188, rfl⟩
abbrev main_v114 : Ref sig .tc := ⟨.hbm, 189, rfl⟩
abbrev main_v115 : Ref sig .tc := ⟨.hbm, 190, rfl⟩
abbrev main_c_43 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_c_44 : Ref sig .tc := ⟨.hbm, 195, rfl⟩
abbrev main_v119 : Ref sig .tc := ⟨.hbm, 196, rfl⟩
abbrev main_v120 : Ref sig .tc := ⟨.hbm, 197, rfl⟩
abbrev main_c_45 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  slices_S8x512x512x2_S8x512x512x1_0_0_0_0 : S8x512x512x2.Slices ![0, 0, 0, 0] S8x512x512x1
  shapeCasts_S8x512x512x1_S8x512x512 : S8x512x512x1.ShapeCasts S8x512x512
  slices_S8x512x512x2_S8x512x512x1_0_0_0_1 : S8x512x512x2.Slices ![0, 0, 0, 1] S8x512x512x1
  bcast_S_S8x512x512 : S_.BroadcastsInDim S8x512x512 (![] : Fin 0 → Fin S8x512x512.rank)
  bcast_S8x512x512_S8x512x512x1_0_1_2 : S8x512x512.BroadcastsInDim S8x512x512x1 (![0, 1, 2] : Fin 3 → Fin S8x512x512x1.rank)
  concatenates_S8x512x512x1_S8x512x512x1_S8x512x512x2_d3 : Shape.Concatenates [S8x512x512x1, S8x512x512x1] S8x512x512x2 3
  inb_S1x16x64x512_S1x16x64x512_0_0_0_0 : ∀ a, (![0, 0, 0, 0] : Fin 4 → Nat) a + S1x16x64x512.size a ≤ S1x16x64x512.size a
  h_S1x16x64x512 : 0 < S1x16x64x512.numel
  shapeCasts_S1x16x64x512_S16x64x512 : S1x16x64x512.ShapeCasts S16x64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  shapeCasts_S1x64x512_S1x64x512 : S1x64x512.ShapeCasts S1x64x512
  broadcasts_S1x64x512_S16x64x512 : S1x64x512.Broadcasts S16x64x512
  shapeCasts_S16x64x512_S1x16x64x512 : S16x64x512.ShapeCasts S1x16x64x512
  gather_S8x16x512x512_S8x512x512x2_S8x16x512x512_1_23_0_0_23_3_11611_wf : GatherDims.WF S8x16x512x512 S8x512x512x2 S8x16x512x512 [1] [2, 3] [0] [2, 3] [0] 3 ![1, 16, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x64x512.size a ≤ S8x16x512x512.size a
  hwx0_0 : ∀ i : grid0.Coords, EltTy.bits .f32 = 32 ∨ (Rect.block (s := S8x16x512x512) S1x16x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x64x512.size a ≤ S8x16x512x512.size a
  hwx0_1 : ∀ i : grid0.Coords, EltTy.bits .f32 = 32 ∨ (Rect.block (s := S8x16x512x512) S1x16x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x64x512.size a ≤ S8x16x512x512.size a
  hwx0_2 : ∀ i : grid0.Coords, EltTy.bits .f32 = 32 ∨ (Rect.block (s := S8x16x512x512) S1x16x64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x64x512.size a ≤ S8x16x512x512.size a
  hwx0_3 : ∀ i : grid0.Coords, EltTy.bits .f32 = 32 ∨ (Rect.block (s := S8x16x512x512) S1x16x64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x512.size a ≤ S8x512x512.size a
  hwx0_4 : ∀ i : grid0.Coords, EltTy.bits .f32 = 32 ∨ (Rect.block (s := S8x512x512) S1x64x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x512.size a ≤ S8x512x512.size a
  hwx0_5 : ∀ i : grid0.Coords, EltTy.bits .f32 = 32 ∨ (Rect.block (s := S8x512x512) S1x64x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x512.size a ≤ S8x512x512.size a
  hwx0_6 : ∀ i : grid0.Coords, EltTy.bits .f32 = 32 ∨ (Rect.block (s := S8x512x512) S1x64x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x512.size a ≤ S8x512x512.size a
  hwx0_7 : ∀ i : grid0.Coords, EltTy.bits .f32 = 32 ∨ (Rect.block (s := S8x512x512) S1x64x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x64x512.size a ≤ S8x16x512x512.size a
  hwx0_8 : ∀ i : grid0.Coords, EltTy.bits .f32 = 32 ∨ (Rect.block (s := S8x16x512x512) S1x16x64x512.size (cc0_transform_8 i) (hinb0_8 i)).WholeWords (EltTy.packing .f32)

variable [Facts₀]

def gather_S8x16x512x512_S8x512x512x2_S8x16x512x512_1_23_0_0_23_3_11611 : GatherDims S8x16x512x512 S8x512x512x2 S8x16x512x512 where
  offsetDims := [1]
  collapsedSliceDims := [2, 3]
  operandBatchingDims := [0]
  startIndicesBatchingDims := [0]
  startIndexMap := [2, 3]
  indexVectorDim := 3
  sliceSizes := ![1, 16, 1, 1]
  wf := gather_S8x16x512x512_S8x512x512x2_S8x16x512x512_1_23_0_0_23_3_11611_wf

abbrev win0_0 : Pipeline.Window sig grid0 :=
  Pipeline.Window.ofSpec (Memref.whole main_v85) S1x16x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v99) S1x16x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v113) S1x16x64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v127) S1x16x64x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v65) S1x64x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v67) S1x64x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v69) S1x64x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v71) S1x64x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v128) S1x16x64x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x16x512x512 : Shape := ⟨4, ![8, 16, 512, 512]⟩
abbrev S8x512x512x2 : Shape := ⟨4, ![8, 512, 512, 2]⟩
abbrev S8x512x512x1 : Shape := ⟨4, ![8, 512, 512, 1]⟩
abbrev S8x512x512 : Shape := ⟨3, ![8, 512, 512]⟩
abbrev S_ : Shape := ⟨0, ![]⟩
abbrev S8x1x512x512 : Shape := ⟨4, ![8, 1, 512, 512]⟩

abbrev nBuf : Space → Nat
  | .hbm => 291
  | .vmem => 0
  | .smem => 0
  | _ => 0

abbrev hbmTy0_0 (i : Nat) : BufTy := match i % 128 with
  | 0 => ⟨S8x16x512x512, .f32⟩
  | 1 => ⟨S8x512x512x2, .f32⟩
  | 2 => ⟨S8x512x512x1, .f32⟩
  | 3 => ⟨S8x512x512, .f32⟩
  | 4 => ⟨S_, .f32⟩
  | 5 => ⟨S8x512x512, .f32⟩
  | 6 => ⟨S8x512x512, .f32⟩
  | 7 => ⟨S_, .f32⟩
  | 8 => ⟨S8x512x512, .f32⟩
  | 9 => ⟨S8x512x512, .f32⟩
  | 10 => ⟨S_, .f32⟩
  | 11 => ⟨S8x512x512, .f32⟩
  | 12 => ⟨S8x512x512, .f32⟩
  | 13 => ⟨S_, .f32⟩
  | 14 => ⟨S8x512x512, .f32⟩
  | 15 => ⟨S8x512x512, .f32⟩
  | 16 => ⟨S8x512x512x1, .f32⟩
  | 17 => ⟨S8x512x512, .f32⟩
  | 18 => ⟨S_, .f32⟩
  | 19 => ⟨S8x512x512, .f32⟩
  | 20 => ⟨S8x512x512, .f32⟩
  | 21 => ⟨S_, .f32⟩
  | 22 => ⟨S8x512x512, .f32⟩
  | 23 => ⟨S8x512x512, .f32⟩
  | 24 => ⟨S_, .f32⟩
  | 25 => ⟨S8x512x512, .f32⟩
  | 26 => ⟨S8x512x512, .f32⟩
  | 27 => ⟨S_, .f32⟩
  | 28 => ⟨S8x512x512, .f32⟩
  | 29 => ⟨S8x512x512, .f32⟩
  | 30 => ⟨S8x512x512, .f32⟩
  | 31 => ⟨S8x512x512, .f32⟩
  | 32 => ⟨S8x512x512, .f32⟩
  | 33 => ⟨S8x512x512, .f32⟩
  | 34 => ⟨S_, .f32⟩
  | 35 => ⟨S8x512x512, .f32⟩
  | 36 => ⟨S8x512x512, .f32⟩
  | 37 => ⟨S_, .f32⟩
  | 38 => ⟨S8x512x512, .f32⟩
  | 39 => ⟨S8x512x512, .f32⟩
  | 40 => ⟨S8x512x512, .f32⟩
  | 41 => ⟨S_, .f32⟩
  | 42 => ⟨S8x512x512, .f32⟩
  | 43 => ⟨S8x512x512, .i1⟩
  | 44 => ⟨S_, .f32⟩
  | 45 => ⟨S8x512x512, .f32⟩
  | 46 => ⟨S8x512x512, .i1⟩
  | 47 => ⟨S8x512x512, .i1⟩
  | 48 => ⟨S_, .f32⟩
  | 49 => ⟨S8x512x512, .f32⟩
  | 50 => ⟨S8x512x512, .i1⟩
  | 51 => ⟨S8x512x512, .i1⟩
  | 52 => ⟨S_, .f32⟩
  | 53 => ⟨S8x512x512, .f32⟩
  | 54 => ⟨S8x512x512, .i1⟩
  | 55 => ⟨S8x512x512, .i1⟩
  | 56 => ⟨S_, .i32⟩
  | 57 => ⟨S_, .i32⟩
  | 58 => ⟨S_, .f32⟩
  | 59 => ⟨S8x512x512, .f32⟩
  | 60 => ⟨S8x512x512, .f32⟩
  | 61 => ⟨S_, .f32⟩
  | 62 => ⟨S8x512x512, .f32⟩
  | 63 => ⟨S8x512x512, .f32⟩
  | 64 => ⟨S8x512x512, .i32⟩
  | 65 => ⟨S_, .i32⟩
  | 66 => ⟨S_, .i32⟩
  | 67 => ⟨S_, .f32⟩
  | 68 => ⟨S8x512x512, .f32⟩
  | 69 => ⟨S8x512x512, .f32⟩
  | 70 => ⟨S_, .f32⟩
  | 71 => ⟨S8x512x512, .f32⟩
  | 72 => ⟨S8x512x512, .f32⟩
  | 73 => ⟨S8x512x512, .i32⟩
  | 74 => ⟨S_, .i32⟩
  | 75 => ⟨S8x512x512, .i32⟩
  | 76 => ⟨S8x512x512, .i1⟩
  | 77 => ⟨S_, .i32⟩
  | 78 => ⟨S8x512x512, .i32⟩
  | 79 => ⟨S8x512x512, .i32⟩
  | 80 => ⟨S8x512x512, .i32⟩
  | 81 => ⟨S_, .i32⟩
  | 82 => ⟨S8x512x512, .i32⟩
  | 83 => ⟨S8x512x512, .i1⟩
  | 84 => ⟨S_, .i32⟩
  | 85 => ⟨S8x512x512, .i32⟩
  | 86 => ⟨S8x512x512, .i32⟩
  | 87 => ⟨S8x512x512, .i32⟩
  | 88 => ⟨S8x512x512x1, .i32⟩
  | 89 => ⟨S8x512x512x1, .i32⟩
  | 90 => ⟨S8x512x512x2, .i32⟩
  | 91 => ⟨S8x16x512x512, .f32⟩
  | 92 => ⟨S_, .f32⟩
  | 93 => ⟨S_, .f32⟩
  | 94 => ⟨S8x512x512, .f32⟩
  | 95 => ⟨S8x512x512, .f32⟩
  | 96 => ⟨S8x1x512x512, .f32⟩
  | 97 => ⟨S8x16x512x512, .f32⟩
  | 98 => ⟨S8x16x512x512, .f32⟩
  | 99 => ⟨S_, .f32⟩
  | 100 => ⟨S8x512x512, .f32⟩
  | 101 => ⟨S8x512x512, .f32⟩
  | 102 => ⟨S8x512x512, .f32⟩
  | 103 => ⟨S_, .f32⟩
  | 104 => ⟨S8x512x512, .f32⟩
  | 105 => ⟨S8x512x512, .i1⟩
  | 106 => ⟨S_, .f32⟩
  | 107 => ⟨S8x512x512, .f32⟩
  | 108 => ⟨S8x512x512, .i1⟩
  | 109 => ⟨S8x512x512, .i1⟩
  | 110 => ⟨S_, .f32⟩
  | 111 => ⟨S8x512x512, .f32⟩
  | 112 => ⟨S8x512x512, .i1⟩
  | 113 => ⟨S8x512x512, .i1⟩
  | 114 => ⟨S_, .f32⟩
  | 115 => ⟨S8x512x512, .f32⟩
  | 116 => ⟨S8x512x512, .i1⟩
  | 117 => ⟨S8x512x512, .i1⟩
  | 118 => ⟨S_, .i32⟩
  | 119 => ⟨S_, .i32⟩
  | 120 => ⟨S_, .f32⟩
  | 121 => ⟨S8x512x512, .f32⟩
  | 122 => ⟨S8x512x512, .f32⟩
  | 123 => ⟨S_, .f32⟩
  | 124 => ⟨S8x512x512, .f32⟩
  | 125 => ⟨S8x512x512, .f32⟩
  | 126 => ⟨S8x512x512, .i32⟩
  | 127 => ⟨S_, .i32⟩
  | _ => ⟨S8x16x512x512, .f32⟩

abbrev hbmTy0_1 (i : Nat) : BufTy := match i % 128 with
  | 0 => ⟨S_, .i32⟩
  | 1 => ⟨S_, .f32⟩
  | 2 => ⟨S8x512x512, .f32⟩
  | 3 => ⟨S8x512x512, .f32⟩
  | 4 => ⟨S_, .f32⟩
  | 5 => ⟨S8x512x512, .f32⟩
  | 6 => ⟨S8x512x512, .f32⟩
  | 7 => ⟨S8x512x512, .i32⟩
  | 8 => ⟨S_, .i32⟩
  | 9 => ⟨S8x512x512, .i32⟩
  | 10 => ⟨S8x512x512, .i1⟩
  | 11 => ⟨S_, .i32⟩
  | 12 => ⟨S8x512x512, .i32⟩
  | 13 => ⟨S8x512x512, .i32⟩
  | 14 => ⟨S8x512x512, .i32⟩
  | 15 => ⟨S_, .i32⟩
  | 16 => ⟨S8x512x512, .i32⟩
  | 17 => ⟨S8x512x512, .i1⟩
  | 18 => ⟨S_, .i32⟩
  | 19 => ⟨S8x512x512, .i32⟩
  | 20 => ⟨S8x512x512, .i32⟩
  | 21 => ⟨S8x512x512, .i32⟩
  | 22 => ⟨S8x512x512x1, .i32⟩
  | 23 => ⟨S8x512x512x1, .i32⟩
  | 24 => ⟨S8x512x512x2, .i32⟩
  | 25 => ⟨S8x16x512x512, .f32⟩
  | 26 => ⟨S_, .f32⟩
  | 27 => ⟨S_, .f32⟩
  | 28 => ⟨S8x512x512, .f32⟩
  | 29 => ⟨S8x512x512, .f32⟩
  | 30 => ⟨S8x1x512x512, .f32⟩
  | 31 => ⟨S8x16x512x512, .f32⟩
  | 32 => ⟨S8x16x512x512, .f32⟩
  | 33 => ⟨S8x16x512x512, .f32⟩
  | 34 => ⟨S_, .f32⟩
  | 35 => ⟨S8x512x512, .f32⟩
  | 36 => ⟨S8x512x512, .f32⟩
  | 37 => ⟨S8x512x512, .f32⟩
  | 38 => ⟨S_, .f32⟩
  | 39 => ⟨S8x512x512, .f32⟩
  | 40 => ⟨S8x512x512, .i1⟩
  | 41 => ⟨S_, .f32⟩
  | 42 => ⟨S8x512x512, .f32⟩
  | 43 => ⟨S8x512x512, .i1⟩
  | 44 => ⟨S8x512x512, .i1⟩
  | 45 => ⟨S_, .f32⟩
  | 46 => ⟨S8x512x512, .f32⟩
  | 47 => ⟨S8x512x512, .i1⟩
  | 48 => ⟨S8x512x512, .i1⟩
  | 49 => ⟨S_, .f32⟩
  | 50 => ⟨S8x512x512, .f32⟩
  | 51 => ⟨S8x512x512, .i1⟩
  | 52 => ⟨S8x512x512, .i1⟩
  | 53 => ⟨S_, .i32⟩
  | 54 => ⟨S_, .i32⟩
  | 55 => ⟨S_, .f32⟩
  | 56 => ⟨S8x512x512, .f32⟩
  | 57 => ⟨S8x512x512, .f32⟩
  | 58 => ⟨S_, .f32⟩
  | 59 => ⟨S8x512x512, .f32⟩
  | 60 => ⟨S8x512x512, .f32⟩
  | 61 => ⟨S8x512x512, .i32⟩
  | 62 => ⟨S_, .i32⟩
  | 63 => ⟨S_, .i32⟩
  | 64 => ⟨S_, .f32⟩
  | 65 => ⟨S8x512x512, .f32⟩
  | 66 => ⟨S8x512x512, .f32⟩
  | 67 => ⟨S_, .f32⟩
  | 68 => ⟨S8x512x512, .f32⟩
  | 69 => ⟨S8x512x512, .f32⟩
  | 70 => ⟨S8x512x512, .i32⟩
  | 71 => ⟨S_, .i32⟩
  | 72 => ⟨S8x512x512, .i32⟩
  | 73 => ⟨S8x512x512, .i1⟩
  | 74 => ⟨S_, .i32⟩
  | 75 => ⟨S8x512x512, .i32⟩
  | 76 => ⟨S8x512x512, .i32⟩
  | 77 => ⟨S8x512x512, .i32⟩
  | 78 => ⟨S_, .i32⟩
  | 79 => ⟨S8x512x512, .i32⟩
  | 80 => ⟨S8x512x512, .i1⟩
  | 81 => ⟨S_, .i32⟩
  | 82 => ⟨S8x512x512, .i32⟩
  | 83 => ⟨S8x512x512, .i32⟩
  | 84 => ⟨S8x512x512, .i32⟩
  | 85 => ⟨S8x512x512x1, .i32⟩
  | 86 => ⟨S8x512x512x1, .i32⟩
  | 87 => ⟨S8x512x512x2, .i32⟩
  | 88 => ⟨S8x16x512x512, .f32⟩
  | 89 => ⟨S_, .f32⟩
  | 90 => ⟨S_, .f32⟩
  | 91 => ⟨S8x512x512, .f32⟩
  | 92 => ⟨S8x512x512, .f32⟩
  | 93 => ⟨S8x1x512x512, .f32⟩
  | 94 => ⟨S8x16x512x512, .f32⟩
  | 95 => ⟨S8x16x512x512, .f32⟩
  | 96 => ⟨S8x16x512x512, .f32⟩
  | 97 => ⟨S_, .f32⟩
  | 98 => ⟨S8x512x512, .f32⟩
  | 99 => ⟨S8x512x512, .f32⟩
  | 100 => ⟨S_, .f32⟩
  | 101 => ⟨S8x512x512, .f32⟩
  | 102 => ⟨S8x512x512, .f32⟩
  | 103 => ⟨S8x512x512, .f32⟩
  | 104 => ⟨S_, .f32⟩
  | 105 => ⟨S8x512x512, .f32⟩
  | 106 => ⟨S8x512x512, .i1⟩
  | 107 => ⟨S_, .f32⟩
  | 108 => ⟨S8x512x512, .f32⟩
  | 109 => ⟨S8x512x512, .i1⟩
  | 110 => ⟨S8x512x512, .i1⟩
  | 111 => ⟨S_, .f32⟩
  | 112 => ⟨S8x512x512, .f32⟩
  | 113 => ⟨S8x512x512, .i1⟩
  | 114 => ⟨S8x512x512, .i1⟩
  | 115 => ⟨S_, .f32⟩
  | 116 => ⟨S8x512x512, .f32⟩
  | 117 => ⟨S8x512x512, .i1⟩
  | 118 => ⟨S8x512x512, .i1⟩
  | 119 => ⟨S_, .i32⟩
  | 120 => ⟨S_, .i32⟩
  | 121 => ⟨S_, .f32⟩
  | 122 => ⟨S8x512x512, .f32⟩
  | 123 => ⟨S8x512x512, .f32⟩
  | 124 => ⟨S_, .f32⟩
  | 125 => ⟨S8x512x512, .f32⟩
  | 126 => ⟨S8x512x512, .f32⟩
  | 127 => ⟨S8x512x512, .i32⟩
  | _ => ⟨S8x16x512x512, .f32⟩

abbrev hbmTy0_2 (i : Nat) : BufTy := match i % 128 with
  | 0 => ⟨S_, .i32⟩
  | 1 => ⟨S_, .i32⟩
  | 2 => ⟨S_, .f32⟩
  | 3 => ⟨S8x512x512, .f32⟩
  | 4 => ⟨S8x512x512, .f32⟩
  | 5 => ⟨S_, .f32⟩
  | 6 => ⟨S8x512x512, .f32⟩
  | 7 => ⟨S8x512x512, .f32⟩
  | 8 => ⟨S8x512x512, .i32⟩
  | 9 => ⟨S_, .i32⟩
  | 10 => ⟨S8x512x512, .i32⟩
  | 11 => ⟨S8x512x512, .i1⟩
  | 12 => ⟨S_, .i32⟩
  | 13 => ⟨S8x512x512, .i32⟩
  | 14 => ⟨S8x512x512, .i32⟩
  | 15 => ⟨S8x512x512, .i32⟩
  | 16 => ⟨S_, .i32⟩
  | 17 => ⟨S8x512x512, .i32⟩
  | 18 => ⟨S8x512x512, .i1⟩
  | 19 => ⟨S_, .i32⟩
  | 20 => ⟨S8x512x512, .i32⟩
  | 21 => ⟨S8x512x512, .i32⟩
  | 22 => ⟨S8x512x512, .i32⟩
  | 23 => ⟨S8x512x512x1, .i32⟩
  | 24 => ⟨S8x512x512x1, .i32⟩
  | 25 => ⟨S8x512x512x2, .i32⟩
  | 26 => ⟨S8x16x512x512, .f32⟩
  | 27 => ⟨S_, .f32⟩
  | 28 => ⟨S_, .f32⟩
  | 29 => ⟨S8x512x512, .f32⟩
  | 30 => ⟨S8x512x512, .f32⟩
  | 31 => ⟨S8x1x512x512, .f32⟩
  | 32 => ⟨S8x16x512x512, .f32⟩
  | 33 => ⟨S8x16x512x512, .f32⟩
  | 34 => ⟨S8x16x512x512, .f32⟩
  | _ => ⟨S8x16x512x512, .f32⟩

abbrev hbmTy (i : Nat) : BufTy := match i / 128 with
  | 0 => hbmTy0_0 i
  | 1 => hbmTy0_1 i
  | 2 => hbmTy0_2 i
  | _ => ⟨S8x16x512x512, .f32⟩

abbrev bufTy : (tb : Table) → Fin (tcTables nBuf tb) → BufTy
  | .hbm, ⟨i, _⟩ => hbmTy i
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_9 : Ref sig .tc := ⟨.hbm, 41, rfl⟩
abbrev main_v29 : Ref sig .tc := ⟨.hbm, 42, rfl⟩
abbrev main_v30 : Ref sig .tc := ⟨.hbm, 43, rfl⟩
abbrev main_cst_10 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_11 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_12 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c : Ref sig .tc := ⟨.hbm, 56, rfl⟩
abbrev main_c_13 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v40 : Ref sig .tc := ⟨.hbm, 63, rfl⟩
abbrev main_v41 : Ref sig .tc := ⟨.hbm, 64, rfl⟩
abbrev main_c_14 : Ref sig .tc := ⟨.hbm, 65, rfl⟩
abbrev main_c_15 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v42 : Ref sig .tc := ⟨.hbm, 72, rfl⟩
abbrev main_v43 : Ref sig .tc := ⟨.hbm, 73, rfl⟩
abbrev main_c_16 : Ref sig .tc := ⟨.hbm, 74, rfl⟩
abbrev main_v44 : Ref sig .tc := ⟨.hbm, 75, rfl⟩
abbrev main_v45 : Ref sig .tc := ⟨.hbm, 76, rfl⟩
abbrev main_c_17 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_18 : Ref sig .tc := ⟨.hbm, 81, rfl⟩
abbrev main_v49 : Ref sig .tc := ⟨.hbm, 82, rfl⟩
abbrev main_v50 : Ref sig .tc := ⟨.hbm, 83, rfl⟩
abbrev main_c_19 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_20 : Ref sig .tc := ⟨.hbm, 92, rfl⟩
abbrev main_call2_v0 : Ref sig .tc := ⟨.hbm, 93, rfl⟩
abbrev main_call2_v1 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_21 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_22 : Ref sig .tc := ⟨.hbm, 103, rfl⟩
abbrev main_v65 : Ref sig .tc := ⟨.hbm, 104, rfl⟩
abbrev main_v66 : Ref sig .tc := ⟨.hbm, 105, rfl⟩
abbrev main_cst_23 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_24 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_25 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_c_26 : Ref sig .tc := ⟨.hbm, 118, rfl⟩
abbrev main_c_27 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_v76 : Ref sig .tc := ⟨.hbm, 125, rfl⟩
abbrev main_v77 : Ref sig .tc := ⟨.hbm, 126, rfl⟩
abbrev main_c_28 : Ref sig .tc := ⟨.hbm, 127, rfl⟩
abbrev main_c_29 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_v78 : Ref sig .tc := ⟨.hbm, 134, rfl⟩
abbrev main_v79 : Ref sig .tc := ⟨.hbm, 135, rfl⟩
abbrev main_c_30 : Ref sig .tc := ⟨.hbm, 136, rfl⟩
abbrev main_v80 : Ref sig .tc := ⟨.hbm, 137, rfl⟩
abbrev main_v81 : Ref sig .tc := ⟨.hbm, 138, rfl⟩
abbrev main_c_31 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_c_32 : Ref sig .tc := ⟨.hbm, 143, rfl⟩
abbrev main_v85 : Ref sig .tc := ⟨.hbm, 144, rfl⟩
abbrev main_v86 : Ref sig .tc := ⟨.hbm, 145, rfl⟩
abbrev main_c_33 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_cst_34 : Ref sig .tc := ⟨.hbm, 154, rfl⟩
abbrev main_call5_v0 : Ref sig .tc := ⟨.hbm, 155, rfl⟩
abbrev main_call5_v1 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_cst_35 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_cst_36 : Ref sig .tc := ⟨.hbm, 166, rfl⟩
abbrev main_v102 : Ref sig .tc := ⟨.hbm, 167, rfl⟩
abbrev main_v103 : Ref sig .tc := ⟨.hbm, 168, rfl⟩
abbrev main_cst_37 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_cst_38 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_cst_39 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_c_40 : Ref sig .tc := ⟨.hbm, 181, rfl⟩
abbrev main_c_41 : Ref sig .tc := ⟨.hbm, 182, rfl⟩
abbrev main_call6_v0 : Ref sig .tc := ⟨.hbm, 183, rfl⟩
abbrev main_call6_v1 : Ref sig .tc := ⟨.hbm, 184, rfl⟩
abbrev main_call6_v2 : Ref sig .tc := ⟨.hbm, 185, rfl⟩
abbrev main_call6_v3 : Ref sig .tc := ⟨.hbm, 186, rfl⟩
abbrev main_call6_v4 : Ref sig .tc := ⟨.hbm, 187, rfl⟩
abbrev main_v113 : Ref sig .tc := ⟨.hbm, 188, rfl⟩
abbrev main_v114 : Ref sig .tc := ⟨.hbm, 189, rfl⟩
abbrev main_c_42 : Ref sig .tc := ⟨.hbm, 190, rfl⟩
abbrev main_c_43 : Ref sig .tc := ⟨.hbm, 191, rfl⟩
abbrev main_call7_v0 : Ref sig .tc := ⟨.hbm, 192, rfl⟩
abbrev main_call7_v1 : Ref sig .tc := ⟨.hbm, 193, rfl⟩
abbrev main_call7_v2 : Ref sig .tc := ⟨.hbm, 194, rfl⟩
abbrev main_call7_v3 : Ref sig .tc := ⟨.hbm, 195, rfl⟩
abbrev main_call7_v4 : Ref sig .tc := ⟨.hbm, 196, rfl⟩
abbrev main_v115 : Ref sig .tc := ⟨.hbm, 197, rfl⟩
abbrev main_v116 : Ref sig .tc := ⟨.hbm, 198, rfl⟩
abbrev main_c_44 : Ref sig .tc := ⟨.hbm, 199, rfl⟩
abbrev main_v117 : Ref sig .tc := ⟨.hbm, 200, rfl⟩
abbrev main_v118 : Ref sig .tc := ⟨.hbm, 201, rfl⟩
abbrev main_c_45 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_c_46 : Ref sig .tc := ⟨.hbm, 206, rfl⟩
abbrev main_v122 : Ref sig .tc := ⟨.hbm, 207, rfl⟩
abbrev main_v123 : Ref sig .tc := ⟨.hbm, 208, rfl⟩
abbrev main_c_47 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_cst_48 : Ref sig .tc := ⟨.hbm, 217, rfl⟩
abbrev main_call8_v0 : Ref sig .tc := ⟨.hbm, 218, rfl⟩
abbrev main_call8_v1 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_cst_49 : Ref sig .tc := ⟨.hbm, 225, rfl⟩
abbrev main_v136 : Ref sig .tc := ⟨.hbm, 226, rfl⟩
abbrev main_v137 : Ref sig .tc := ⟨.hbm, 227, rfl⟩
abbrev main_cst_50 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_cst_51 : Ref sig .tc := ⟨.hbm, 232, rfl⟩
abbrev main_v141 : Ref sig .tc := ⟨.hbm, 233, rfl⟩
abbrev main_v142 : Ref sig .tc := ⟨.hbm, 234, rfl⟩
abbrev main_cst_52 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_cst_53 : Ref sig .tc := ⟨.hbm, 239, rfl⟩
abbrev main_v146 : Ref sig .tc := ⟨.hbm, 240, rfl⟩
abbrev main_v147 : Ref sig .tc := ⟨.hbm, 241, rfl⟩
abbrev main_v148 : Ref sig .tc := ⟨.hbm, 242, rfl⟩
abbrev main_cst_54 : Ref sig .tc := ⟨.hbm, 243, rfl⟩
abbrev main_v149 : Ref sig .tc := ⟨.hbm, 244, rfl⟩
abbrev main_v150 : Ref sig .tc := ⟨.hbm, 245, rfl⟩
abbrev main_v151 : Ref sig .tc := ⟨.hbm, 246, rfl⟩
abbrev main_c_55 : Ref sig .tc := ⟨.hbm, 247, rfl⟩
abbrev main_c_56 : Ref sig .tc := ⟨.hbm, 248, rfl⟩
abbrev main_call9_v0 : Ref sig .tc := ⟨.hbm, 249, rfl⟩
abbrev main_call9_v1 : Ref sig .tc := ⟨.hbm, 250, rfl⟩
abbrev main_call9_v2 : Ref sig .tc := ⟨.hbm, 251, rfl⟩
abbrev main_call9_v3 : Ref sig .tc := ⟨.hbm, 252, rfl⟩
abbrev main_call9_v4 : Ref sig .tc := ⟨.hbm, 253, rfl⟩
abbrev main_v152 : Ref sig .tc := ⟨.hbm, 254, rfl⟩
abbrev main_v153 : Ref sig .tc := ⟨.hbm, 255, rfl⟩
abbrev main_c_57 : Ref sig .tc := ⟨.hbm, 256, rfl⟩
abbrev main_c_58 : Ref sig .tc := ⟨.hbm, 257, rfl⟩
abbrev main_call10_v0 : Ref sig .tc := ⟨.hbm, 258, rfl⟩
abbrev main_call10_v1 : Ref sig .tc := ⟨.hbm, 259, rfl⟩
abbrev main_call10_v2 : Ref sig .tc := ⟨.hbm, 260, rfl⟩
abbrev main_call10_v3 : Ref sig .tc := ⟨.hbm, 261, rfl⟩
abbrev main_call10_v4 : Ref sig .tc := ⟨.hbm, 262, rfl⟩
abbrev main_v154 : Ref sig .tc := ⟨.hbm, 263, rfl⟩
abbrev main_v155 : Ref sig .tc := ⟨.hbm, 264, rfl⟩
abbrev main_c_59 : Ref sig .tc := ⟨.hbm, 265, rfl⟩
abbrev main_v156 : Ref sig .tc := ⟨.hbm, 266, rfl⟩
abbrev main_v157 : Ref sig .tc := ⟨.hbm, 267, rfl⟩
abbrev main_c_60 : Ref sig .tc := ⟨.hbm, 268, rfl⟩
abbrev main_v158 : Ref sig .tc := ⟨.hbm, 269, rfl⟩
abbrev main_v159 : Ref sig .tc := ⟨.hbm, 270, rfl⟩
abbrev main_v160 : Ref sig .tc := ⟨.hbm, 271, rfl⟩
abbrev main_c_61 : Ref sig .tc := ⟨.hbm, 272, rfl⟩
abbrev main_v161 : Ref sig .tc := ⟨.hbm, 273, rfl⟩
abbrev main_v162 : Ref sig .tc := ⟨.hbm, 274, rfl⟩
abbrev main_c_62 : Ref sig .tc := ⟨.hbm, 275, rfl⟩
abbrev main_v163 : Ref sig .tc := ⟨.hbm, 276, rfl⟩
abbrev main_v164 : Ref sig .tc := ⟨.hbm, 277, rfl⟩
abbrev main_v165 : Ref sig .tc := ⟨.hbm, 278, rfl⟩
abbrev main_v166 : Ref sig .tc := ⟨.hbm, 279, rfl⟩
abbrev main_v167 : Ref sig .tc := ⟨.hbm, 280, rfl⟩
abbrev main_v168 : Ref sig .tc := ⟨.hbm, 281, rfl⟩
abbrev main_v169 : Ref sig .tc := ⟨.hbm, 282, rfl⟩
abbrev main_cst_63 : Ref sig .tc := ⟨.hbm, 283, rfl⟩
abbrev main_call11_v0 : Ref sig .tc := ⟨.hbm, 284, rfl⟩
abbrev main_call11_v1 : Ref sig .tc := ⟨.hbm, 285, rfl⟩
abbrev main_v170 : Ref sig .tc := ⟨.hbm, 286, rfl⟩
abbrev main_v171 : Ref sig .tc := ⟨.hbm, 287, rfl⟩
abbrev main_v172 : Ref sig .tc := ⟨.hbm, 288, rfl⟩
abbrev main_v173 : Ref sig .tc := ⟨.hbm, 289, rfl⟩
abbrev main_v174 : Ref sig .tc := ⟨.hbm, 290, rfl⟩

abbrev nD : Nat := 1
abbrev τ : Topo := Topo.v7x

variable {F : FTy → Type} [FloatOps F]

class Facts₀ : Prop where
  slices_S8x512x512x2_S8x512x512x1_0_0_0_0 : S8x512x512x2.Slices ![0, 0, 0, 0] S8x512x512x1
  shapeCasts_S8x512x512x1_S8x512x512 : S8x512x512x1.ShapeCasts S8x512x512
  bcast_S_S8x512x512 : S_.BroadcastsInDim S8x512x512 (![] : Fin 0 → Fin S8x512x512.rank)
  slices_S8x512x512x2_S8x512x512x1_0_0_0_1 : S8x512x512x2.Slices ![0, 0, 0, 1] S8x512x512x1
  bcast_S8x512x512_S8x512x512x1_0_1_2 : S8x512x512.BroadcastsInDim S8x512x512x1 (![0, 1, 2] : Fin 3 → Fin S8x512x512x1.rank)
  concatenates_S8x512x512x1_S8x512x512x1_S8x512x512x2_d3 : Shape.Concatenates [S8x512x512x1, S8x512x512x1] S8x512x512x2 3
  bcast_S8x512x512_S8x1x512x512_0_2_3 : S8x512x512.BroadcastsInDim S8x1x512x512 (![0, 2, 3] : Fin 3 → Fin S8x1x512x512.rank)
  bcast_S8x1x512x512_S8x16x512x512_0_1_2_3 : S8x1x512x512.BroadcastsInDim S8x16x512x512 (![0, 1, 2, 3] : Fin 4 → Fin S8x16x512x512.rank)
  gather_S8x16x512x512_S8x512x512x2_S8x16x512x512_1_23_0_0_23_3_11611_wf : GatherDims.WF S8x16x512x512 S8x512x512x2 S8x16x512x512 [1] [2, 3] [0] [2, 3] [0] 3 ![1, 16, 1, 1]

variable [Facts₀]

def gather_S8x16x512x512_S8x512x512x2_S8x16x512x512_1_23_0_0_23_3_11611 : GatherDims S8x16x512x512 S8x512x512x2 S8x16x512x512 where
  offsetDims := [1]
  collapsedSliceDims := [2, 3]
  operandBatchingDims := [0]
  startIndicesBatchingDims := [0]
  startIndexMap := [2, 3]
  indexVectorDim := 3
  sliceSizes := ![1, 16, 1, 1]
  wf := gather_S8x16x512x512_S8x512x512x2_S8x16x512x512_1_23_0_0_23_3_11611_wf

class Facts : Prop extends Facts₀ where

variable [Facts]
-- ==== Proof.Bilinear.lean ====
/-
  Bilinear grid sampling with zero padding, as whole-array terms.

  For an image batch `x : f32[8,16,512,512]` and a sampling grid `g : f32[8,512,512,2]`, every output pixel
  `(b, h, w)` has a real sampling position `(ix, iy)`, obtained from the grid's two channels by the affine map
  `a ↦ ((a + 1) · 512 − 1) · ½`. Its four neighbouring integer corners are `(⌊ix⌋ or ⌊ix⌋+1, ⌊iy⌋ or ⌊iy⌋+1)`. A corner
  contributes the image value at the corner CLAMPED into `[0, 511]²`, times the product of the two one-dimensional
  interpolation weights (the fractional part, or one minus it), and that weight is replaced by zero when the UNCLAMPED
  corner lies outside `[0, 512)²`. The result at `(b, c, h, w)` is the sum of the four contributions, added in the order
  (lo,lo), (hi,lo), (lo,hi), (hi,hi) of (x-corner, y-corner).

  Everything here is generic in the float instance; nothing is evaluated.
-/
import proofs.«401945_j79310866088165_4_alg».proof.KernelIdeal

noncomputable section

namespace Cert.KernelIdeal.Bilinear

open Cert.KernelIdeal Cert.KernelIdeal.Facts₀ Idealize.ShloMosaic

variable {F : FTy → Type} [FloatOps F] [Cert.KernelIdeal.Facts]

/-- An image batch, one value per (batch, channel, row, column). -/
abbrev Img (F : FTy → Type) : Type := (⟨S8x16x512x512, .f32⟩ : BufTy).Contents (Elt F)
/-- A sampling grid, two coordinates per output pixel. -/
abbrev Grd (F : FTy → Type) : Type := (⟨S8x512x512x2, .f32⟩ : BufTy).Contents (Elt F)
/-- One float per output pixel (batch, row, column). -/
abbrev PixF (F : FTy → Type) : Type := (⟨S8x512x512, .f32⟩ : BufTy).Contents (Elt F)
/-- One 32-bit integer per output pixel. -/
abbrev PixI (F : FTy → Type) : Type := (⟨S8x512x512, .i32⟩ : BufTy).Contents (Elt F)
/-- One truth value per output pixel. -/
abbrev PixB (F : FTy → Type) : Type := (⟨S8x512x512, .i1⟩ : BufTy).Contents (Elt F)

/-- The float with bit pattern `w` at every pixel. -/
def constF (w : BitVec 32) : PixF F :=
  broadcastInDim S8x512x512 ![] bcast_S_S8x512x512 (constant S_ .f32 w)

/-- The integer `w` at every pixel. -/
def constI (w : BitVec 32) : PixI F :=
  broadcastInDim S8x512x512 ![] bcast_S_S8x512x512 (constantI S_ 32 w)

/-- The grid's first channel: the normalised horizontal position of every pixel's sample. -/
def chanX (g : Grd F) : PixF F :=
  shapeCast _ (extractStridedSlice S8x512x512x1 ![0, 0, 0, 0] g slices_S8x512x512x2_S8x512x512x1_0_0_0_0) shapeCasts_S8x512x512x1_S8x512x512

/-- The grid's second channel: the normalised vertical position. -/
def chanY (g : Grd F) : PixF F :=
  shapeCast _ (extractStridedSlice S8x512x512x1 ![0, 0, 0, 1] g slices_S8x512x512x2_S8x512x512x1_0_0_0_1) shapeCasts_S8x512x512x1_S8x512x512

/-- From a normalised position in `[-1, 1]` to a pixel position: `a ↦ ((a + 1) · 512 − 1) · ½`. -/
def unnorm (a : PixF F) : PixF F :=
  mulf (subf (mulf (addf a (constF 0x3F800000#32)) (constF 0x44000000#32)) (constF 0x3F800000#32)) (constF 0x3F000000#32)

/-- The horizontal pixel position of every sample. -/
def posX (g : Grd F) : PixF F := unnorm (chanX g)
/-- The vertical pixel position of every sample. -/
def posY (g : Grd F) : PixF F := unnorm (chanY g)

/-- The lower neighbouring integer coordinate, `⌊p⌋`. -/
def lo (p : PixF F) : PixF F := Host.floor p
/-- The upper neighbouring integer coordinate, `⌊p⌋ + 1`. -/
def hi (p : PixF F) : PixF F := addf (Host.floor p) (constF 0x3F800000#32)
/-- The weight of the upper neighbour: the fractional part `p − ⌊p⌋`. -/
def wHi (p : PixF F) : PixF F := subf p (Host.floor p)
/-- The weight of the lower neighbour: `1 − (p − ⌊p⌋)`. -/
def wLo (p : PixF F) : PixF F := subf (constF 0x3F800000#32) (subf p (Host.floor p))

/-- Whether a coordinate lies in `[0, 512)`. -/
def inside (q : PixF F) : PixB F := andi (cmpf .oge q (constF 0x00000000#32)) (cmpf .olt q (constF 0x44000000#32))

/-- A coordinate clamped into `[0, 511]` and converted to an integer. -/
def clampIdx (q : PixF F) : PixI F :=
  fptosi 32 (minimumf (broadcastInDim S8x512x512 ![] bcast_S_S8x512x512 (sitofp .f32 (constantI S_ 32 511#32)))
    (maximumf (broadcastInDim S8x512x512 ![] bcast_S_S8x512x512 (sitofp .f32 (constantI S_ 32 0#32))) q))

/-- A negative index counted from the end, `i < 0 ↦ i + 512`. -/
def wrapIdx (i : PixI F) : PixI F := select (cmpi .slt i (constI (F := F) 0#32)) (addi i (constI (F := F) 512#32)) i

/-- The (row, column) index pair of every pixel's corner. -/
def pairIdx (yi xi : PixI F) : (⟨S8x512x512x2, .i32⟩ : BufTy).Contents (Elt F) :=
  concatenate S8x512x512x2 3
    [⟨S8x512x512x1, broadcastInDim S8x512x512x1 ![0, 1, 2] bcast_S8x512x512_S8x512x512x1_0_1_2 (wrapIdx yi)⟩,
     ⟨S8x512x512x1, broadcastInDim S8x512x512x1 ![0, 1, 2] bcast_S8x512x512_S8x512x512x1_0_1_2 (wrapIdx xi)⟩]
    concatenates_S8x512x512x1_S8x512x512x1_S8x512x512x2_d3

/-- The image read, for every batch, channel and output pixel, at the pixel's corner `(qy, qx)` clamped into the image. -/
def fetch (x : Img F) (qy qx : PixF F) : Img F :=
  Host.gather gather_S8x16x512x512_S8x512x512x2_S8x16x512x512_1_23_0_0_23_3_11611 x (pairIdx (clampIdx qy) (clampIdx qx))

/-- A weight kept where the mask holds, zero elsewhere. -/
def masked (v : PixB F) (w : PixF F) : PixF F :=
  select v w (broadcastInDim S8x512x512 ![] bcast_S_S8x512x512 (id (constant S_ .f32 0x00000000#32)))

/-! ## The four corners: image values and weights -/

def val00 (x : Img F) (g : Grd F) : Img F := fetch x (lo (posY g)) (lo (posX g))
def val10 (x : Img F) (g : Grd F) : Img F := fetch x (lo (posY g)) (hi (posX g))
def val01 (x : Img F) (g : Grd F) : Img F := fetch x (hi (posY g)) (lo (posX g))
def val11 (x : Img F) (g : Grd F) : Img F := fetch x (hi (posY g)) (hi (posX g))

def wgt00 (g : Grd F) : PixF F := masked (andi (inside (lo (posX g))) (inside (lo (posY g)))) (mulf (wLo (posX g)) (wLo (posY g)))
def wgt10 (g : Grd F) : PixF F := masked (andi (inside (hi (posX g))) (inside (lo (posY g)))) (mulf (wHi (posX g)) (wLo (posY g)))
def wgt01 (g : Grd F) : PixF F := masked (andi (inside (lo (posX g))) (inside (hi (posY g)))) (mulf (wLo (posX g)) (wHi (posY g)))
def wgt11 (g : Grd F) : PixF F := masked (andi (inside (hi (posX g))) (inside (hi (posY g)))) (mulf (wHi (posX g)) (wHi (posY g)))

/-- The output pixel (batch, row, column) under an output index (batch, channel, row, column). -/
def pixOf (i : S8x16x512x512.Idx) : S8x512x512.Idx := fun a => match a with
  | ⟨0, _⟩ => ⟨(i 0).val, (i 0).isLt⟩
  | ⟨1, _⟩ => ⟨(i 2).val, (i 2).isLt⟩
  | ⟨2, _⟩ => ⟨(i 3).val, (i 3).isLt⟩

/-- THE SAMPLED IMAGE: at every index the four corner values times their weights, summed left to right. -/
def sample (x : Img F) (g : Grd F) : Img F := fun i =>
  FloatOps.addf (FloatOps.addf (FloatOps.addf
    (FloatOps.mulf (val00 x g i) (wgt00 g (pixOf i)))
    (FloatOps.mulf (val10 x g i) (wgt10 g (pixOf i))))
    (FloatOps.mulf (val01 x g i) (wgt01 g (pixOf i))))
    (FloatOps.mulf (val11 x g i) (wgt11 g (pixOf i)))

end Cert.KernelIdeal.Bilinear

end
-- ==== Proof.KernelOperands.lean ====
/-
  What the eight operand arrays of the combining region hold when the region is entered.

  The host program in front of the region computes, from the image batch and the sampling grid, the four clamped corner
  gathers and the four masked interpolation weights; read back from the host operations they are exactly the whole-array
  terms `val00 … val11` and `wgt00 … wgt11` of the image batch and the grid as launched.
-/
import proofs.«401945_j79310866088165_4_alg».proof.Proof.Gen.KernelIdeal.Frame
import proofs.«401945_j79310866088165_4_alg».proof.Proof.Bilinear
import Idealize.ShloMosaic.Lib.StableHlo.Run

noncomputable section

namespace Cert.KernelIdeal.Operands

open Cert.KernelIdeal Cert.KernelIdeal.Gen Cert.KernelIdeal.Bilinear
open Idealize.ShloMosaic Idealize.ShloMosaic.TcCoe Idealize.SL.Sem Idealize.ShloMosaic.StableHlo

variable {F : FTy → Type} [FloatOps F]
variable (m : (ℓ : Loc nD τ sig) → Buf (Elt F) ℓ)

/-- The image batch as launched, on core `c`. -/
abbrev img (c : Dev nD) : Img F := m ((c : Thread nD τ).loc main_arg0)
/-- The sampling grid as launched, on core `c`. -/
abbrev grd (c : Dev nD) : Grd F := m ((c : Thread nD τ).loc main_arg1)

set_option maxRecDepth 16384 in
set_option maxHeartbeats 200000000 in
/-- The region finds its four value operands at the four clamped corner gathers and its four weight operands at the
    four masked weight products. -/
theorem operands (c : Dev nD) :
    (V m c main_v85 : Img F) = val00 (img m c) (grd m c)
    ∧ (V m c main_v99 : Img F) = val10 (img m c) (grd m c)
    ∧ (V m c main_v113 : Img F) = val01 (img m c) (grd m c)
    ∧ (V m c main_v127 : Img F) = val11 (img m c) (grd m c)
    ∧ (V m c main_v65 : PixF F) = wgt00 (grd m c)
    ∧ (V m c main_v67 : PixF F) = wgt10 (grd m c)
    ∧ (V m c main_v69 : PixF F) = wgt01 (grd m c)
    ∧ (V m c main_v71 : PixF F) = wgt11 (grd m c) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  exact ⟨rfl, rfl, rfl, rfl, rfl, rfl, rfl, rfl⟩

end Cert.KernelIdeal.Operands

end
-- ==== Proof.KernelValue.lean ====
/-
  The array the combining region leaves, as one function of its eight operand arrays.

  The region runs over an 8 × 8 grid: point `(b, hg)` handles batch element `b` and the 64 rows `64·hg … 64·hg + 63`. Its
  body multiplies each of the four value blocks `[16, 64, 512]` by the matching weight block `[64, 512]` (the same weight for
  all 16 channels) and adds the four products left to right. So the output array at `(b, c, h, w)` is the four value arrays
  at `(b, c, h, w)` times the four weight arrays at `(b, h, w)`, summed in that order; the 64 blocks are disjoint and fill
  the array.
-/
import proofs.«401945_j79310866088165_4_alg».proof.Proof.Gen.KernelIdeal.Value
import proofs.«401945_j79310866088165_4_alg».proof.Proof.Bilinear

noncomputable section

namespace Cert.KernelIdeal.Combined

open Cert.KernelIdeal Cert.KernelIdeal.Gen Cert.KernelIdeal.Value Cert.KernelIdeal.Bilinear
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Four value arrays weighted by four per-pixel arrays and summed left to right, index by index. -/
def combine (a0 a1 a2 a3 : Img F) (b0 b1 b2 b3 : PixF F) : Img F := fun i =>
  FloatOps.addf (FloatOps.addf (FloatOps.addf
    (FloatOps.mulf (a0 i) (b0 (pixOf i)))
    (FloatOps.mulf (a1 i) (b1 (pixOf i))))
    (FloatOps.mulf (a2 i) (b2 (pixOf i))))
    (FloatOps.mulf (a3 i) (b3 (pixOf i)))

theorem zero4 : (![0, 0, 0, 0] : Fin 4 → Nat) = fun _ => 0 := funext fun a => by fin_cases a <;> rfl
theorem zero3 : (![0, 0, 0] : Fin 3 → Nat) = fun _ => 0 := funext fun a => by fin_cases a <;> rfl

/-- A block index `(0, c, r, w)` is its own (channel, row, column) position: the leading axis has extent one. -/
theorem blockIdx_self (y : S1x16x64x512.Idx) : ix8_0 y = y := by
  funext a; apply Fin.ext
  match a with
  | ⟨0, _⟩ => show 0 = (y 0).val; have h : (y 0).val < 1 := (y 0).isLt; omega
  | ⟨1, _⟩ => rfl
  | ⟨2, _⟩ => rfl
  | ⟨3, _⟩ => rfl

/-- WHAT THE BODY LEAVES IN THE OUTPUT BLOCK, over arbitrary operand blocks: at `(0, c, r, w)` the four value blocks there
    times the four weight blocks at `(0, r, w)`, summed left to right. -/
theorem block_eq (x0 x1 x2 x3 : Vec F S1x16x64x512 .f32) (x4 x5 x6 x7 : Vec F S1x64x512 .f32) (y : S1x16x64x512.Idx) :
    out0_8 x0 x1 x2 x3 x4 x5 x6 x7 y
      = FloatOps.addf (FloatOps.addf (FloatOps.addf
          (FloatOps.mulf (x0 y) (x4 (ix8_1 y)))
          (FloatOps.mulf (x1 y) (x5 (ix8_1 y))))
          (FloatOps.mulf (x2 y) (x6 (ix8_1 y))))
          (FloatOps.mulf (x3 y) (x7 (ix8_1 y))) := by
  unfold out0_8
  rw [canon8_eq]
  simp only [View.ld_unit_zero (S := S1x16x64x512) zero4, View.ld_unit_zero (S := S1x64x512) zero3]
  show FloatOps.addf (FloatOps.addf (FloatOps.addf
          (FloatOps.mulf (x0 (ix8_0 y)) (x4 (ix8_1 y)))
          (FloatOps.mulf (x1 (ix8_0 y)) (x5 (ix8_1 y))))
          (FloatOps.mulf (x2 (ix8_0 y)) (x6 (ix8_1 y))))
          (FloatOps.mulf (x3 (ix8_0 y)) (x7 (ix8_1 y))) = _
  rw [blockIdx_self]

/-- The printed index maps, decided over the 64 grid points: every value window moves with the output window on all four
    axes, every weight window on the batch, row-block and column axes, and the output's block indices are the point's
    batch element, zero, its row block, zero. -/
theorem idx_facts : ∀ t : Fin cfg0.N,
    (∀ a : Fin 4, win0_0.index t a = win0_8.index t a)
    ∧ (∀ a : Fin 4, win0_1.index t a = win0_8.index t a)
    ∧ (∀ a : Fin 4, win0_2.index t a = win0_8.index t a)
    ∧ (∀ a : Fin 4, win0_3.index t a = win0_8.index t a)
    ∧ (win0_4.index t (0 : Fin 3) = win0_8.index t (0 : Fin 4) ∧ win0_4.index t (1 : Fin 3) = win0_8.index t (2 : Fin 4) ∧ win0_4.index t (2 : Fin 3) = win0_8.index t (3 : Fin 4))
    ∧ (win0_5.index t (0 : Fin 3) = win0_8.index t (0 : Fin 4) ∧ win0_5.index t (1 : Fin 3) = win0_8.index t (2 : Fin 4) ∧ win0_5.index t (2 : Fin 3) = win0_8.index t (3 : Fin 4))
    ∧ (win0_6.index t (0 : Fin 3) = win0_8.index t (0 : Fin 4) ∧ win0_6.index t (1 : Fin 3) = win0_8.index t (2 : Fin 4) ∧ win0_6.index t (2 : Fin 3) = win0_8.index t (3 : Fin 4))
    ∧ (win0_7.index t (0 : Fin 3) = win0_8.index t (0 : Fin 4) ∧ win0_7.index t (1 : Fin 3) = win0_8.index t (2 : Fin 4) ∧ win0_7.index t (2 : Fin 3) = win0_8.index t (3 : Fin 4))
    ∧ win0_8.index t (1 : Fin 4) = 0 ∧ win0_8.index t (3 : Fin 4) = 0
    ∧ win0_8.index t (0 : Fin 4) ≤ 7 ∧ win0_8.index t (2 : Fin 4) ≤ 7 :=
  (by decide +kernel : ∀ t : Fin grid0.N, _)

/-- Every (batch element, row block) pair is some grid point's. -/
theorem idx_onto : ∀ (q0 : Fin 8) (q2 : Fin 8), ∃ t : Fin cfg0.N, win0_8.index t = ![q0.val, 0, q2.val, 0] :=
  (by decide +kernel : ∀ (q0 : Fin 8) (q2 : Fin 8), ∃ t : Fin grid0.N, win0_8.index t = ![q0.val, 0, q2.val, 0])

/-! ## Each operand block, read off its array -/

theorem readVal0 (c : Dev nD) (t : Fin cfg0.N) (j : S1x16x64x512.Idx) :
    (iblk m c 0 t : Vec F S1x16x64x512 .f32) j = (V m c main_v85 : Img F) (((cfg0.win 0).blk t).view.emb j) := rfl

theorem readVal1 (c : Dev nD) (t : Fin cfg0.N) (j : S1x16x64x512.Idx) :
    (iblk m c 1 t : Vec F S1x16x64x512 .f32) j = (V m c main_v99 : Img F) (((cfg0.win 1).blk t).view.emb j) := rfl

theorem readVal2 (c : Dev nD) (t : Fin cfg0.N) (j : S1x16x64x512.Idx) :
    (iblk m c 2 t : Vec F S1x16x64x512 .f32) j = (V m c main_v113 : Img F) (((cfg0.win 2).blk t).view.emb j) := rfl

theorem readVal3 (c : Dev nD) (t : Fin cfg0.N) (j : S1x16x64x512.Idx) :
    (iblk m c 3 t : Vec F S1x16x64x512 .f32) j = (V m c main_v127 : Img F) (((cfg0.win 3).blk t).view.emb j) := rfl

theorem readWgt4 (c : Dev nD) (t : Fin cfg0.N) (j : S1x64x512.Idx) :
    (iblk m c 4 t : Vec F S1x64x512 .f32) j = (V m c main_v65 : PixF F) (((cfg0.win 4).blk t).view.emb j) := rfl

theorem readWgt5 (c : Dev nD) (t : Fin cfg0.N) (j : S1x64x512.Idx) :
    (iblk m c 5 t : Vec F S1x64x512 .f32) j = (V m c main_v67 : PixF F) (((cfg0.win 5).blk t).view.emb j) := rfl

theorem readWgt6 (c : Dev nD) (t : Fin cfg0.N) (j : S1x64x512.Idx) :
    (iblk m c 6 t : Vec F S1x64x512 .f32) j = (V m c main_v69 : PixF F) (((cfg0.win 6).blk t).view.emb j) := rfl

theorem readWgt7 (c : Dev nD) (t : Fin cfg0.N) (j : S1x64x512.Idx) :
    (iblk m c 7 t : Vec F S1x64x512 .f32) j = (V m c main_v71 : PixF F) (((cfg0.win 7).blk t).view.emb j) := rfl

/-! ## Where an operand block sits in its array, against the output block -/

/-- Value window 0's block at point `t` lies exactly where the output window's block does. -/
theorem embVal0 (t : Fin cfg0.N) (j : S1x16x64x512.Idx) :
    ((cfg0.win 0).blk t).view.emb j = ((cfg0.win 8).blk t).view.emb j := by
  obtain ⟨e, -⟩ := idx_facts t
  funext a; apply Fin.ext
  match a with
  | ⟨0, _⟩ => show win0_0.index t (0 : Fin 4) * 1 + 1 * (j 0).val = win0_8.index t (0 : Fin 4) * 1 + 1 * (j 0).val; rw [e 0]
  | ⟨1, _⟩ => show win0_0.index t (1 : Fin 4) * 16 + 1 * (j 1).val = win0_8.index t (1 : Fin 4) * 16 + 1 * (j 1).val; rw [e 1]
  | ⟨2, _⟩ => show win0_0.index t (2 : Fin 4) * 64 + 1 * (j 2).val = win0_8.index t (2 : Fin 4) * 64 + 1 * (j 2).val; rw [e 2]
  | ⟨3, _⟩ => show win0_0.index t (3 : Fin 4) * 512 + 1 * (j 3).val = win0_8.index t (3 : Fin 4) * 512 + 1 * (j 3).val; rw [e 3]

/-- Value window 1's block at point `t` lies exactly where the output window's block does. -/
theorem embVal1 (t : Fin cfg0.N) (j : S1x16x64x512.Idx) :
    ((cfg0.win 1).blk t).view.emb j = ((cfg0.win 8).blk t).view.emb j := by
  obtain ⟨-, e, -⟩ := idx_facts t
  funext a; apply Fin.ext
  match a with
  | ⟨0, _⟩ => show win0_1.index t (0 : Fin 4) * 1 + 1 * (j 0).val = win0_8.index t (0 : Fin 4) * 1 + 1 * (j 0).val; rw [e 0]
  | ⟨1, _⟩ => show win0_1.index t (1 : Fin 4) * 16 + 1 * (j 1).val = win0_8.index t (1 : Fin 4) * 16 + 1 * (j 1).val; rw [e 1]
  | ⟨2, _⟩ => show win0_1.index t (2 : Fin 4) * 64 + 1 * (j 2).val = win0_8.index t (2 : Fin 4) * 64 + 1 * (j 2).val; rw [e 2]
  | ⟨3, _⟩ => show win0_1.index t (3 : Fin 4) * 512 + 1 * (j 3).val = win0_8.index t (3 : Fin 4) * 512 + 1 * (j 3).val; rw [e 3]

/-- Value window 2's block at point `t` lies exactly where the output window's block does. -/
theorem embVal2 (t : Fin cfg0.N) (j : S1x16x64x512.Idx) :
    ((cfg0.win 2).blk t).view.emb j = ((cfg0.win 8).blk t).view.emb j := by
  obtain ⟨-, -, e, -⟩ := idx_facts t
  funext a; apply Fin.ext
  match a with
  | ⟨0, _⟩ => show win0_2.index t (0 : Fin 4) * 1 + 1 * (j 0).val = win0_8.index t (0 : Fin 4) * 1 + 1 * (j 0).val; rw [e 0]
  | ⟨1, _⟩ => show win0_2.index t (1 : Fin 4) * 16 + 1 * (j 1).val = win0_8.index t (1 : Fin 4) * 16 + 1 * (j 1).val; rw [e 1]
  | ⟨2, _⟩ => show win0_2.index t (2 : Fin 4) * 64 + 1 * (j 2).val = win0_8.index t (2 : Fin 4) * 64 + 1 * (j 2).val; rw [e 2]
  | ⟨3, _⟩ => show win0_2.index t (3 : Fin 4) * 512 + 1 * (j 3).val = win0_8.index t (3 : Fin 4) * 512 + 1 * (j 3).val; rw [e 3]

/-- Value window 3's block at point `t` lies exactly where the output window's block does. -/
theorem embVal3 (t : Fin cfg0.N) (j : S1x16x64x512.Idx) :
    ((cfg0.win 3).blk t).view.emb j = ((cfg0.win 8).blk t).view.emb j := by
  obtain ⟨-, -, -, e, -⟩ := idx_facts t
  funext a; apply Fin.ext
  match a with
  | ⟨0, _⟩ => show win0_3.index t (0 : Fin 4) * 1 + 1 * (j 0).val = win0_8.index t (0 : Fin 4) * 1 + 1 * (j 0).val; rw [e 0]
  | ⟨1, _⟩ => show win0_3.index t (1 : Fin 4) * 16 + 1 * (j 1).val = win0_8.index t (1 : Fin 4) * 16 + 1 * (j 1).val; rw [e 1]
  | ⟨2, _⟩ => show win0_3.index t (2 : Fin 4) * 64 + 1 * (j 2).val = win0_8.index t (2 : Fin 4) * 64 + 1 * (j 2).val; rw [e 2]
  | ⟨3, _⟩ => show win0_3.index t (3 : Fin 4) * 512 + 1 * (j 3).val = win0_8.index t (3 : Fin 4) * 512 + 1 * (j 3).val; rw [e 3]

/-- Weight window 4's block at point `t`, at a block position's rows and columns, lies at the pixel under the output block's index. -/
theorem embWgt4 (t : Fin cfg0.N) (j : S1x16x64x512.Idx) :
    ((cfg0.win 4).blk t).view.emb (ix8_1 j) = pixOf (((cfg0.win 8).blk t).view.emb j) := by
  obtain ⟨-, -, -, -, e, -⟩ := idx_facts t
  obtain ⟨q0, q1, q2⟩ := e
  have hj0 : (j 0).val < 1 := (j 0).isLt
  funext a; apply Fin.ext
  match a with
  | ⟨0, _⟩ => show win0_4.index t (0 : Fin 3) * 1 + 1 * 0 = win0_8.index t (0 : Fin 4) * 1 + 1 * (j 0).val; omega
  | ⟨1, _⟩ => show win0_4.index t (1 : Fin 3) * 64 + 1 * (j 2).val = win0_8.index t (2 : Fin 4) * 64 + 1 * (j 2).val; omega
  | ⟨2, _⟩ => show win0_4.index t (2 : Fin 3) * 512 + 1 * (j 3).val = win0_8.index t (3 : Fin 4) * 512 + 1 * (j 3).val; omega

/-- Weight window 5's block at point `t`, at a block position's rows and columns, lies at the pixel under the output block's index. -/
theorem embWgt5 (t : Fin cfg0.N) (j : S1x16x64x512.Idx) :
    ((cfg0.win 5).blk t).view.emb (ix8_1 j) = pixOf (((cfg0.win 8).blk t).view.emb j) := by
  obtain ⟨-, -, -, -, -, e, -⟩ := idx_facts t
  obtain ⟨q0, q1, q2⟩ := e
  have hj0 : (j 0).val < 1 := (j 0).isLt
  funext a; apply Fin.ext
  match a with
  | ⟨0, _⟩ => show win0_5.index t (0 : Fin 3) * 1 + 1 * 0 = win0_8.index t (0 : Fin 4) * 1 + 1 * (j 0).val; omega
  | ⟨1, _⟩ => show win0_5.index t (1 : Fin 3) * 64 + 1 * (j 2).val = win0_8.index t (2 : Fin 4) * 64 + 1 * (j 2).val; omega
  | ⟨2, _⟩ => show win0_5.index t (2 : Fin 3) * 512 + 1 * (j 3).val = win0_8.index t (3 : Fin 4) * 512 + 1 * (j 3).val; omega

/-- Weight window 6's block at point `t`, at a block position's rows and columns, lies at the pixel under the output block's index. -/
theorem embWgt6 (t : Fin cfg0.N) (j : S1x16x64x512.Idx) :
    ((cfg0.win 6).blk t).view.emb (ix8_1 j) = pixOf (((cfg0.win 8).blk t).view.emb j) := by
  obtain ⟨-, -, -, -, -, -, e, -⟩ := idx_facts t
  obtain ⟨q0, q1, q2⟩ := e
  have hj0 : (j 0).val < 1 := (j 0).isLt
  funext a; apply Fin.ext
  match a with
  | ⟨0, _⟩ => show win0_6.index t (0 : Fin 3) * 1 + 1 * 0 = win0_8.index t (0 : Fin 4) * 1 + 1 * (j 0).val; omega
  | ⟨1, _⟩ => show win0_6.index t (1 : Fin 3) * 64 + 1 * (j 2).val = win0_8.index t (2 : Fin 4) * 64 + 1 * (j 2).val; omega
  | ⟨2, _⟩ => show win0_6.index t (2 : Fin 3) * 512 + 1 * (j 3).val = win0_8.index t (3 : Fin 4) * 512 + 1 * (j 3).val; omega

/-- Weight window 7's block at point `t`, at a block position's rows and columns, lies at the pixel under the output block's index. -/
theorem embWgt7 (t : Fin cfg0.N) (j : S1x16x64x512.Idx) :
    ((cfg0.win 7).blk t).view.emb (ix8_1 j) = pixOf (((cfg0.win 8).blk t).view.emb j) := by
  obtain ⟨-, -, -, -, -, -, -, e, -⟩ := idx_facts t
  obtain ⟨q0, q1, q2⟩ := e
  have hj0 : (j 0).val < 1 := (j 0).isLt
  funext a; apply Fin.ext
  match a with
  | ⟨0, _⟩ => show win0_7.index t (0 : Fin 3) * 1 + 1 * 0 = win0_8.index t (0 : Fin 4) * 1 + 1 * (j 0).val; omega
  | ⟨1, _⟩ => show win0_7.index t (1 : Fin 3) * 64 + 1 * (j 2).val = win0_8.index t (2 : Fin 4) * 64 + 1 * (j 2).val; omega
  | ⟨2, _⟩ => show win0_7.index t (2 : Fin 3) * 512 + 1 * (j 3).val = win0_8.index t (3 : Fin 4) * 512 + 1 * (j 3).val; omega

/-- WHAT POINT `t` WRITES BACK is block `t` of `combine` of the eight operand arrays as the region finds them. -/
theorem flushed_eq (c : Dev nD) (t : Fin cfg0.N) :
    (dats m 0 c).flushed 8 t = ((cfg0.win 8).blk t).view.read (Elt F)
      (combine (V m c main_v85) (V m c main_v99) (V m c main_v113) (V m c main_v127)
               (V m c main_v65) (V m c main_v67) (V m c main_v69) (V m c main_v71)) := by
  rw [Value.flushed8]
  funext j
  show out0_8 (iblk m c 0 t) (iblk m c 1 t) (iblk m c 2 t) (iblk m c 3 t) (iblk m c 4 t) (iblk m c 5 t) (iblk m c 6 t) (iblk m c 7 t) j = _
  refine (block_eq (iblk m c 0 t) (iblk m c 1 t) (iblk m c 2 t) (iblk m c 3 t) (iblk m c 4 t) (iblk m c 5 t) (iblk m c 6 t) (iblk m c 7 t) j).trans ?_
  rw [readVal0 m c t j, readVal1 m c t j, readVal2 m c t j, readVal3 m c t j,
    readWgt4 m c t (ix8_1 j), readWgt5 m c t (ix8_1 j), readWgt6 m c t (ix8_1 j), readWgt7 m c t (ix8_1 j),
    embVal0 t j, embVal1 t j, embVal2 t j, embVal3 t j, embWgt4 t j, embWgt5 t j, embWgt6 t j, embWgt7 t j]
  rfl

/-! ## The 64 blocks fill the output array -/

/-- An index of the output array is in point `t`'s block iff each coordinate is in the block's range on its axis. -/
theorem mem_blk (t : Fin cfg0.N) (i : S8x16x512x512.Idx) :
    i ∈ ((cfg0.win 8).blk t).view.set ↔ ∀ a : Fin 4, win0_8.index t a * S1x16x64x512.size a ≤ (i a).val ∧ (i a).val < win0_8.index t a * S1x16x64x512.size a + S1x16x64x512.size a := by
  show i ∈ ((View.whole main_v128).slice (win0_8.rect t)).set ↔ _
  rw [View.set_slice_whole, Rect.mem_set_unit]
  exact Iff.rfl

/-- Every index `(b, c, h, w)` of the output array is in the block of the point for batch element `b` and row block `h / 64`. -/
theorem cover (i : S8x16x512x512.Idx) :
    ∃ t : Fin cfg0.N, (cfg0.win 8).flush t = true ∧ i ∈ ((cfg0.win 8).blk t).view.set := by
  have hi0 : (i 0).val < 8 := (i 0).isLt
  have hi1 : (i 1).val < 16 := (i 1).isLt
  have hi2 : (i 2).val < 512 := (i 2).isLt
  have hi3 : (i 3).val < 512 := (i 3).isLt
  obtain ⟨t, ht⟩ := idx_onto ⟨(i 0).val, hi0⟩ ⟨(i 2).val / 64, by omega⟩
  have q0 : win0_8.index t (0 : Fin 4) = (i 0).val := congrFun ht 0
  have q1 : win0_8.index t (1 : Fin 4) = 0 := congrFun ht 1
  have q2 : win0_8.index t (2 : Fin 4) = (i 2).val / 64 := congrFun ht 2
  have q3 : win0_8.index t (3 : Fin 4) = 0 := congrFun ht 3
  refine ⟨t, flush0_8 t, ?_⟩
  rw [mem_blk]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 16 ≤ (i 1).val ∧ (i 1).val < win0_8.index t (1 : Fin 4) * 16 + 16; omega
  | ⟨2, _⟩ => show win0_8.index t (2 : Fin 4) * 64 ≤ (i 2).val ∧ (i 2).val < win0_8.index t (2 : Fin 4) * 64 + 64; omega
  | ⟨3, _⟩ => show win0_8.index t (3 : Fin 4) * 512 ≤ (i 3).val ∧ (i 3).val < win0_8.index t (3 : Fin 4) * 512 + 512; omega

/-- THE OUTPUT ARRAY after the region is `combine` of the eight operand arrays as the region found them. -/
theorem final (c : Dev nD) :
    (dats m 0 c).arrAt 8 cfg0.N = combine (V m c main_v85) (V m c main_v99) (V m c main_v113) (V m c main_v127)
        (V m c main_v65) (V m c main_v67) (V m c main_v69) (V m c main_v71) :=
  (dats m 0 c).arrAt_eq_of_cover 8 _ (fun t _ => flushed_eq m c t) cover

/-- The kernel's run with its result array named: `combine` of the operand arrays; the arguments unchanged. -/
theorem run : θ_run defs (onTc (τ := τ) (main (F := F))) ⟨m, fun _ => 0, ρ⟩ fun r => ∀ c : Dev nD,
      r.2.mem ((c : Thread nD τ).loc main_v128) = combine (V m c main_v85) (V m c main_v99) (V m c main_v113) (V m c main_v127)
        (V m c main_v65) (V m c main_v67) (V m c main_v69) (V m c main_v71)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Combined

end
-- ==== Proof.RefValue.lean ====
/-
  The reference's result, read index by index.

  The reference computes the same four corners one after the other: for each it masks the weight product with the
  conjunction "x-corner in range and y-corner in range", gathers the image at the clamped corner, inserts a channel axis of
  extent one into the masked weight and broadcasts it over the 16 channels, and multiplies; the four products are added left to right.
  Read at an index `(b, c, h, w)` the two broadcasts pick the weight at pixel `(b, h, w)`, so the result is the sampled image
  `sample`. The only difference from the kernel's operand arrays is how the four-way conjunction of the range tests is
  grouped, and conjunction of truth values is associative.
-/
import proofs.«401945_j79310866088165_4_alg».proof.Proof.Gen.ReferenceIdeal.Read
import proofs.«401945_j79310866088165_4_alg».proof.Proof.Bilinear

noncomputable section

namespace Cert.ReferenceIdeal.Sampled

open Cert.ReferenceIdeal Cert.ReferenceIdeal.Read Cert.KernelIdeal.Bilinear
open Idealize.ShloMosaic Idealize.ShloMosaic.TcCoe Idealize.SL.Sem

variable {F : FTy → Type} [FloatOps F] [Cert.KernelIdeal.Facts]

/-- "x-corner in range, then y-corner nonnegative, then y-corner below the extent", grouped to the left, is the conjunction of
    the two range tests. -/
theorem inside_both (qx qy : PixF F) :
    andi (andi (andi (cmpf .oge qx (constF 0x00000000#32)) (cmpf .olt qx (constF 0x44000000#32))) (cmpf .oge qy (constF 0x00000000#32))) (cmpf .olt qy (constF 0x44000000#32))
      = andi (inside qx) (inside qy) := by
  funext i
  show IntOp.andi (IntOp.andi (IntOp.andi _ _) _) _ = IntOp.andi (IntOp.andi _ _) (IntOp.andi _ _)
  unfold IntOp.andi
  exact BitVec.and_assoc _ _ _

/-! ## The pixel under an output index, through the two broadcasts -/

theorem pix1 (i : S8x16x512x512.Idx) : idx_main_v59 (idx_main_v60 i) = pixOf i := by
  funext a; match a with | ⟨0, _⟩ => rfl | ⟨1, _⟩ => rfl | ⟨2, _⟩ => rfl
theorem pix2 (i : S8x16x512x512.Idx) : idx_main_v95 (idx_main_v96 i) = pixOf i := by
  funext a; match a with | ⟨0, _⟩ => rfl | ⟨1, _⟩ => rfl | ⟨2, _⟩ => rfl
theorem pix3 (i : S8x16x512x512.Idx) : idx_main_v132 (idx_main_v133 i) = pixOf i := by
  funext a; match a with | ⟨0, _⟩ => rfl | ⟨1, _⟩ => rfl | ⟨2, _⟩ => rfl
theorem pix4 (i : S8x16x512x512.Idx) : idx_main_v171 (idx_main_v172 i) = pixOf i := by
  funext a; match a with | ⟨0, _⟩ => rfl | ⟨1, _⟩ => rfl | ⟨2, _⟩ => rfl

/-! ## The reference's gathers and masked weights are the four corners' -/

theorem stage_val00 (x : Img F) (g : Grd F) : val_main_v57 (F := F) x g = val00 x g := rfl
theorem stage_val10 (x : Img F) (g : Grd F) : val_main_v93 (F := F) x g = val10 x g := rfl
theorem stage_val01 (x : Img F) (g : Grd F) : val_main_v130 (F := F) x g = val01 x g := rfl
theorem stage_val11 (x : Img F) (g : Grd F) : val_main_v169 (F := F) x g = val11 x g := rfl

theorem stage_wgt00 (g : Grd F) : val_main_v58 (F := F) g = wgt00 g := by
  show masked (andi (andi (andi (cmpf .oge (lo (posX g)) (constF 0x00000000#32)) (cmpf .olt (lo (posX g)) (constF 0x44000000#32))) (cmpf .oge (lo (posY g)) (constF 0x00000000#32))) (cmpf .olt (lo (posY g)) (constF 0x44000000#32))) (mulf (wLo (posX g)) (wLo (posY g))) = _
  rw [inside_both]; rfl
theorem stage_wgt10 (g : Grd F) : val_main_v94 (F := F) g = wgt10 g := by
  show masked (andi (andi (andi (cmpf .oge (hi (posX g)) (constF 0x00000000#32)) (cmpf .olt (hi (posX g)) (constF 0x44000000#32))) (cmpf .oge (lo (posY g)) (constF 0x00000000#32))) (cmpf .olt (lo (posY g)) (constF 0x44000000#32))) (mulf (wHi (posX g)) (wLo (posY g))) = _
  rw [inside_both]; rfl
theorem stage_wgt01 (g : Grd F) : val_main_v131 (F := F) g = wgt01 g := by
  show masked (andi (andi (andi (cmpf .oge (lo (posX g)) (constF 0x00000000#32)) (cmpf .olt (lo (posX g)) (constF 0x44000000#32))) (cmpf .oge (hi (posY g)) (constF 0x00000000#32))) (cmpf .olt (hi (posY g)) (constF 0x44000000#32))) (mulf (wLo (posX g)) (wHi (posY g))) = _
  rw [inside_both]; rfl
theorem stage_wgt11 (g : Grd F) : val_main_v170 (F := F) g = wgt11 g := by
  show masked (andi (andi (andi (cmpf .oge (hi (posX g)) (constF 0x00000000#32)) (cmpf .olt (hi (posX g)) (constF 0x44000000#32))) (cmpf .oge (hi (posY g)) (constF 0x00000000#32))) (cmpf .olt (hi (posY g)) (constF 0x44000000#32))) (mulf (wHi (posX g)) (wHi (posY g))) = _
  rw [inside_both]; rfl

/-- THE REFERENCE'S RESULT is the sampled image. -/
theorem result_eq (x : Img F) (g : Grd F) : val_main_v174 (F := F) x g = sample x g := by
  funext i
  rw [val_main_v174_apply, val_main_v135_apply, val_main_v98_apply,
    val_main_v61_apply, val_main_v97_apply, val_main_v134_apply, val_main_v173_apply,
    val_main_v60_apply, val_main_v59_apply, val_main_v96_apply, val_main_v95_apply,
    val_main_v133_apply, val_main_v132_apply, val_main_v172_apply, val_main_v171_apply,
    pix1, pix2, pix3, pix4,
    stage_val00, stage_val10, stage_val01, stage_val11, stage_wgt00, stage_wgt10, stage_wgt01, stage_wgt11]
  rfl

end Cert.ReferenceIdeal.Sampled

end
-- ==== Proof.lean ====
/-
  Bilinear grid sampling with zero padding: the kernel against its reference, over the extended reals.

  Both programs compute, for every output pixel, the pixel position of its sample from the grid, the four neighbouring
  integer corners, each corner's image value at the corner clamped into the image and each corner's weight (a product of
  two one-dimensional interpolation weights, replaced by zero when the unclamped corner is outside the image), and add the
  four value-times-weight products left to right. The kernel does the gathers and the weights on the host and only the
  weighted sum in its region, block by block; the reference does everything on the host, corner after corner. No algebraic
  law is needed beyond the associativity of the conjunction of the range tests: the two results are the same expression
  at every index, so finiteness of the inputs is never used.

  `Bilinear` names the whole-array terms, `KernelOperands` reads the region's eight operand arrays off the kernel's host
  operations, `KernelValue` turns the 64 output blocks into one array, `RefValue` reads the reference's result at an index.
-/
import proofs.«401945_j79310866088165_4_alg».proof.Defs
import proofs.«401945_j79310866088165_4_alg».proof.Proof.Gen.Kernel
import proofs.«401945_j79310866088165_4_alg».proof.Proof.Gen.Kernel.Skeleton
import proofs.«401945_j79310866088165_4_alg».proof.Proof.Gen.Kernel.Launch
import proofs.«401945_j79310866088165_4_alg».proof.Proof.Gen.Kernel.Points
import proofs.«401945_j79310866088165_4_alg».proof.Proof.Gen.Kernel.Frame
import proofs.«401945_j79310866088165_4_alg».proof.Proof.Gen.KernelIdeal
import proofs.«401945_j79310866088165_4_alg».proof.Proof.Gen.KernelIdeal.Skeleton
import proofs.«401945_j79310866088165_4_alg».proof.Proof.Gen.KernelIdeal.Launch
import proofs.«401945_j79310866088165_4_alg».proof.Proof.Gen.KernelIdeal.Points
import proofs.«401945_j79310866088165_4_alg».proof.Proof.Gen.KernelIdeal.Frame
import proofs.«401945_j79310866088165_4_alg».proof.Proof.Gen.ReferenceIdeal
import proofs.«401945_j79310866088165_4_alg».proof.Proof.Gen.Pre_finite_inputs
import proofs.«401945_j79310866088165_4_alg».proof.Proof.Gen.KernelIdeal.Value
import proofs.«401945_j79310866088165_4_alg».proof.Proof.Gen.ReferenceIdeal.Run
import proofs.«401945_j79310866088165_4_alg».proof.Proof.Gen.ReferenceIdeal.Read
import proofs.«401945_j79310866088165_4_alg».proof.Proof.Bilinear
import proofs.«401945_j79310866088165_4_alg».proof.Proof.KernelOperands
import proofs.«401945_j79310866088165_4_alg».proof.Proof.KernelValue
import proofs.«401945_j79310866088165_4_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the sampled image of the arguments. On the kernel's side the region leaves the
    weighted sum of its operand arrays, which are the four corner gathers and the four masked weights; on the reference's
    side the result read at an index is the same weighted sum. -/
theorem algebraic : Cert.algebraic_KernelIdeal_ReferenceIdeal := by
  intro m ρ m' ρ' _ hagree
  refine ⟨fun c => Cert.KernelIdeal.Bilinear.sample (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.Combined.run (F := Ideal) m ρ)
    obtain ⟨o0, o1, o2, o3, o4, o5, o6, o7⟩ := Cert.KernelIdeal.Operands.operands (F := Ideal) m c
    rw [o0, o1, o2, o3, o4, o5, o6, o7]
    rfl
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v174_eq, (hagree c).1, (hagree c).2]
    exact Cert.ReferenceIdeal.Sampled.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
